-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x165 : Shape := ⟨2, ![100000, 165]⟩
abbrev S2x1600000 : Shape := ⟨2, ![2, 1600000]⟩
abbrev S165x128 : Shape := ⟨2, ![165, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S100000x165 : S_.BroadcastsInDim S100000x165 (![] : Fin 0 → Fin S100000x165.rank)
  reducesTo_S100000x165_S_d0_1 : S100000x165.ReducesTo [0, 1] S_
  h_S_ : 0 < S_.numel
  bcast_S_S165x128 : S_.BroadcastsInDim S165x128 (![] : Fin 0 → Fin S165x128.rank)
  reducesTo_S165x128_S_d0_1 : S165x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S64 .f32) (main_arg6 : FVec F S64x2 .f32) (main_arg7 : FVec F S2 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x2 .f32 := Host.absf main_arg6
  let main_cst_8 : FVec F S_ .f32 := constant S_ .f32 0x7F800000#32
  let main_v25 : FVec F S64x2 .f32 := broadcastInDim S64x2 ![] bcast_S_S64x2 main_cst_8
  let main_v26 : IVec S64x2 1 := cmpf .olt main_v24 main_v25
  let main_c_9 : IVec S_ 1 := constantI S_ 1 1#1
  let main_v27 : IVec S_ 1 := (fun x v => Host.reduce IntOp.andi x v reducesTo_S64x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x165 .f32) (main_arg1 : IVec S2x1600000 32) (main_arg2 : FVec F S165x128 .f32) (main_arg3 : FVec F S128 .f32) (main_arg4 : FVec F S128x64 .f32) (main_arg5 : FVec F S64 .f32) (main_arg6 : FVec F S64x2 .f32) (main_arg7 : FVec F S2 .f32) : IVec S_ 1 :=
  let main_v0 : FVec F S100000x165 .f32 := Host.absf main_arg0
  let main_cst : FVec F S_ .f32 := constant S_ .f32 0x7F800000#32
  let main_v1 : FVec F S100000x165 .f32 := broadcastInDim S100000x165 ![] bcast_S_S100000x165 main_cst
  let main_v2 : IVec S100000x165 1 := cmpf .olt main_v0 main_v1
  let main_c : IVec S_ 1 := constantI S_ 1 1#1
  let main_v3 : IVec S_ 1 := (fun x v => Host.reduce IntOp.andi x v reducesTo_S100000x165_S_d0_1 h_S_) main_v2 main_c
  let main_v4 : FVec F S165x128 .f32 := Host.absf main_arg2
  let main_cst_0 : FVec F S_ .f32 := constant S_ .f32 0x7F800000#32
  let main_v5 : FVec F S165x128 .f32 := broadcastInDim S165x128 ![] bcast_S_S165x128 main_cst_0
  let main_v6 : IVec S165x128 1 := cmpf .olt main_v4 main_v5
  let main_c_1 : IVec S_ 1 := constantI S_ 1 1#1
  let main_v7 : IVec S_ 1 := (fun x v => Host.reduce IntOp.andi x v reducesTo_S165x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S100000x165 : Shape := ⟨2, ![100000, 165]⟩
abbrev S2x1600000 : Shape := ⟨2, ![2, 1600000]⟩
abbrev S165x128 : Shape := ⟨2, ![165, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x128 : Shape := ⟨2, ![100000, 128]⟩
abbrev S5000x165 : Shape := ⟨2, ![5000, 165]⟩
abbrev S5000x128 : Shape := ⟨2, ![5000, 128]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S5000x64 : Shape := ⟨2, ![5000, 64]⟩
abbrev S1600000x64 : Shape := ⟨2, ![1600000, 64]⟩
abbrev S1x64 : Shape := ⟨2, ![1, 64]⟩
abbrev S1x2 : Shape := ⟨2, ![1, 2]⟩
abbrev S100000x2 : Shape := ⟨2, ![100000, 2]⟩
abbrev S5000x2 : Shape := ⟨2, ![5000, 2]⟩

abbrev nBuf : Space → Nat
  | .hbm => 90
  | .vmem => 26
  | .smem => 0
  | _ => 0

abbrev bufTy : (tb : Table) → Fin (tcTables nBuf tb) → BufTy
  | .hbm, ⟨0, _⟩ => ⟨S100000x165, .f32⟩
  | .hbm, ⟨1, _⟩ => ⟨S2x1600000, .i32⟩
  | .hbm, ⟨2, _⟩ => ⟨S165x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x2, .f32⟩
  | .hbm, ⟨7, _⟩ => ⟨S2, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000, .f32⟩
  | .hbm, ⟨40, _⟩ => ⟨S1600000, .f32⟩
  | .hbm, ⟨41, _⟩ => ⟨S100000, .f32⟩
  | .hbm, ⟨42, _⟩ => ⟨S100000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S1600000x1, .f32⟩
  | .hbm, ⟨53, _⟩ => ⟨S1600000x128, .f32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S100000x1, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x64, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x64, .f32⟩
  | .hbm, ⟨75, _⟩ => ⟨S1600000x1, .f32⟩
  | .hbm, ⟨76, _⟩ => ⟨S1600000x64, .f32⟩
  | .hbm, ⟨77, _⟩ => ⟨S1600000x64, .f32⟩
  | .hbm, ⟨78, _⟩ => ⟨S_, .f32⟩
  | .hbm, ⟨79, _⟩ => ⟨S100000x64, .f32⟩
  | .hbm, ⟨80, _⟩ => ⟨S1600000x1, .i32⟩
  | .hbm, ⟨81, _⟩ => ⟨S100000x64, .f32⟩
  | .hbm, ⟨82, _⟩ => ⟨S100000x1, .f32⟩
  | .hbm, ⟨83, _⟩ => ⟨S100000x64, .f32⟩
  | .hbm, ⟨84, _⟩ => ⟨S100000x64, .f32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S1x2, .f32⟩
  | .hbm, ⟨89, _⟩ => ⟨S100000x2, .f32⟩
  | .local _ .vmem, ⟨0, _⟩ => ⟨S5000x165, .f32⟩
  | .local _ .vmem, ⟨1, _⟩ => ⟨S5000x165, .f32⟩
  | .local _ .vmem, ⟨2, _⟩ => ⟨S165x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x2, .f32⟩
  | .local _ .vmem, ⟨23, _⟩ => ⟨S1x2, .f32⟩
  | .local _ .vmem, ⟨24, _⟩ => ⟨S5000x2, .f32⟩
  | .local _ .vmem, ⟨25, _⟩ => ⟨S5000x2, .f32⟩
  | _, _ => ⟨S100000x165, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_c_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x165 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S165x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x2 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x2 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S5000x165_S5000x165_0_0 : ∀ a, (![0, 0] : Fin 2 → Nat) a + S5000x165.size a ≤ S5000x165.size a
  h_S5000x165 : 0 < S5000x165.numel
  bitsLt_bf16_f32 : FTy.bits .bf16 < FTy.bits .f32
  inb_S165x128_S165x128_0_0 : ∀ a, (![0, 0] : Fin 2 → Nat) a + S165x128.size a ≤ S165x128.size a
  h_S165x128 : 0 < S165x128.numel
  inb_S5000x128_S5000x128_0_0 : ∀ a, (![0, 0] : Fin 2 → Nat) a + S5000x128.size a ≤ S5000x128.size a
  h_S5000x128 : 0 < S5000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S5000x64_S5000x64 : S5000x64.ShapeCasts S5000x64
  shapeCasts_S2_S1x2 : S2.ShapeCasts S1x2
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x165_S165x128_S5000x128_1_0_0_1_n_n_wf : DotDims.WF S5000x165 S165x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x165.size a ≤ S100000x165.size a
  hwx0_0 : ∀ i : grid0.Coords, EltTy.bits .f32 = 32 ∨ (Rect.block (s := S100000x165) S5000x165.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S165x128.size a ≤ S165x128.size a
  hwx0_1 : ∀ i : grid0.Coords, EltTy.bits .f32 = 32 ∨ (Rect.block (s := S165x128) S165x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x2.size a ≤ S64x2.size a
  hwx4_1 : ∀ i : grid4.Coords, EltTy.bits .f32 = 32 ∨ (Rect.block (s := S64x2) S64x2.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x2.size a ≤ S1x2.size a
  hwx4_2 : ∀ i : grid4.Coords, EltTy.bits .f32 = 32 ∨ (Rect.block (s := S1x2) S1x2.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x2.size a ≤ S100000x2.size a
  hwx4_3 : ∀ i : grid4.Coords, EltTy.bits .f32 = 32 ∨ (Rect.block (s := S100000x2) S5000x2.size (cc4_transform_3 i) (hinb4_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x165_S165x128_S5000x128_1_0_0_1_n_n : DotDims S5000x165 S165x128 S5000x128 where
  lhsContracting := [1]
  rhsContracting := [0]
  lhsNonContracting := [0]
  rhsNonContracting := [1]
  lhsBatch := []
  rhsBatch := []
  wf := dot_S5000x165_S165x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_arg0) S5000x165.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S165x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v64) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v66) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v66) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v67) S1x2.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v68) S5000x2.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x165 : Shape := ⟨2, ![100000, 165]⟩
abbrev S2x1600000 : Shape := ⟨2, ![2, 1600000]⟩
abbrev S165x128 : Shape := ⟨2, ![165, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S100000x128 : Shape := ⟨2, ![100000, 128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩
abbrev S100000x2 : Shape := ⟨2, ![100000, 2]⟩
abbrev S1x2 : Shape := ⟨2, ![1, 2]⟩

abbrev nBuf : Space → Nat
  | .hbm => 130
  | .vmem => 0
  | .smem => 0
  | _ => 0

abbrev hbmTy0_0 (i : Nat) : BufTy := match i % 128 with
  | 0 => ⟨S100000x165, .f32⟩
  | 1 => ⟨S2x1600000, .i32⟩
  | 2 => ⟨S165x128, .f32⟩
  | 3 => ⟨S128, .f32⟩
  | 4 => ⟨S128x64, .f32⟩
  | 5 => ⟨S64, .f32⟩
  | 6 => ⟨S64x2, .f32⟩
  | 7 => ⟨S2, .f32⟩
  | 8 => ⟨S1x1600000, .i32⟩
  | 9 => ⟨S1600000, .i32⟩
  | 10 => ⟨S1x1600000, .i32⟩
  | 11 => ⟨S1600000, .i32⟩
  | 12 => ⟨S100000x128, .f32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S100000, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x128, .f32⟩
  | 51 => ⟨S1600000x1, .f32⟩
  | 52 => ⟨S1600000x128, .f32⟩
  | 53 => ⟨S1600000x128, .f32⟩
  | 54 => ⟨S_, .f32⟩
  | 55 => ⟨S100000x128, .f32⟩
  | 56 => ⟨S1600000x1, .i32⟩
  | 57 => ⟨S100000x128, .f32⟩
  | 58 => ⟨S100000, .f32⟩
  | 59 => ⟨S100000x1, .f32⟩
  | 60 => ⟨S100000x128, .f32⟩
  | 61 => ⟨S100000x128, .f32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000x64, .f32⟩
  | 70 => ⟨S_, .f32⟩
  | 71 => ⟨S1600000, .f32⟩
  | 72 => ⟨S_, .f32⟩
  | 73 => ⟨S100000, .f32⟩
  | 74 => ⟨S1600000x1, .i32⟩
  | 75 => ⟨S100000, .f32⟩
  | 76 => ⟨S_, .f32⟩
  | 77 => ⟨S100000, .f32⟩
  | 78 => ⟨S100000, .f32⟩
  | 79 => ⟨S100000, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000, .f32⟩
  | 98 => ⟨S1600000, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x64, .f32⟩
  | 108 => ⟨S1600000x1, .f32⟩
  | 109 => ⟨S1600000x64, .f32⟩
  | 110 => ⟨S1600000x64, .f32⟩
  | 111 => ⟨S_, .f32⟩
  | 112 => ⟨S100000x64, .f32⟩
  | 113 => ⟨S1600000x1, .i32⟩
  | 114 => ⟨S100000x64, .f32⟩
  | 115 => ⟨S100000, .f32⟩
  | 116 => ⟨S100000x1, .f32⟩
  | 117 => ⟨S100000x64, .f32⟩
  | 118 => ⟨S100000x64, .f32⟩
  | 119 => ⟨S100000x64, .f32⟩
  | 120 => ⟨S1x64, .f32⟩
  | 121 => ⟨S100000x64, .f32⟩
  | 122 => ⟨S100000x64, .f32⟩
  | 123 => ⟨S_, .f32⟩
  | 124 => ⟨S100000x64, .f32⟩
  | 125 => ⟨S100000x64, .f32⟩
  | 126 => ⟨S100000x2, .f32⟩
  | 127 => ⟨S1x2, .f32⟩
  | _ => ⟨S100000x165, .f32⟩

abbrev hbmTy0_1 (i : Nat) : BufTy := match i % 128 with
  | 0 => ⟨S100000x2, .f32⟩
  | 1 => ⟨S100000x2, .f32⟩
  | _ => ⟨S100000x165, .f32⟩

abbrev hbmTy (i : Nat) : BufTy := match i / 128 with
  | 0 => hbmTy0_0 i
  | 1 => hbmTy0_1 i
  | _ => ⟨S100000x165, .f32⟩

abbrev bufTy : (tb : Table) → Fin (tcTables nBuf tb) → BufTy
  | .hbm, ⟨i, _⟩ => hbmTy i
  | _, _ => ⟨S100000x165, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_c_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_15 : Ref sig .tc := ⟨.hbm, 99, rfl⟩
abbrev main_v72 : Ref sig .tc := ⟨.hbm, 100, rfl⟩
abbrev main_v73 : Ref sig .tc := ⟨.hbm, 101, rfl⟩
abbrev main_c_16 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_17 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_call1_cst : Ref sig .tc := ⟨.hbm, 123, rfl⟩
abbrev main_call1_v0 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S100000x165_S165x128_S100000x128_1_0_0_1_n_n_wf : DotDims.WF S100000x165 S165x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x2_S100000x2_1_0_0_1_n_n_wf : DotDims.WF S100000x64 S64x2 S100000x2 [1] [0] [0] [1] [] []

variable [Facts₀]

def dot_S100000x165_S165x128_S100000x128_1_0_0_1_n_n : DotDims S100000x165 S165x128 S100000x128 where
  lhsContracting := [1]
  rhsContracting := [0]
  lhsNonContracting := [0]
  rhsNonContracting := [1]
  lhsBatch := []
  rhsBatch := []
  wf := dot_S100000x165_S165x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.LibPlainDot.lean ====
/-
  A plain matrix product read at coordinates.

  `DotDims.plain M K N` are the dimension numbers of an `M×K` by `K×N` product: the left operand is contracted on its
  second axis, the right on its first, no batch axis. At the ideal instance such a product, whether it is the kernel's
  `tpu.matmul` into a zero accumulator or the host's `dot_general`, is at the output index `(r, c)` the sum over
  `k : Fin K` of `A (r, k) * B (k, c)` on the extended reals: the same sum in the same order on both sides, so the two
  agree wherever their operands do.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's index at output index `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at output index `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- The kernel's product into a zero accumulator, at an output index: the sum over the shared axis. -/
theorem matmul_zero_apply (prec : Option ContractPrecision) (A : FVec Ideal ⟨2, ![M, K]⟩ .f32) (B : FVec Ideal ⟨2, ![K, N]⟩ .f32)
    (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index: the same sum. -/
theorem dotGeneral_apply (prec : Option ContractPrecision) (sched : HostSchedule) (A : FVec Ideal ⟨2, ![M, K]⟩ .f32)
    (B : FVec Ideal ⟨2, ![K, N]⟩ .f32) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.LibPlainDotAny.lean ====
/-
  A plain matrix product read at coordinates, at any two operand formats.

  At the ideal instance every float format is the extended reals, so an `M×K` by `K×N` product whose operands were
  first narrowed to another format (a kernel that feeds its matrix unit bf16) is still, at the output index `(r, c)`, the
  sum over `k : Fin K` of `A (r, k) * B (k, c)`: for the kernel's product into a zero accumulator and for the host's
  `dot_general` alike, over any dimension record equal to `DotDims.plain M K N`.
-/
import proofs.«171686_j75977971466925_1_alg».proof.Proof.LibPlainDot

noncomputable section

open scoped BigOperators

namespace Idealize.ShloMosaic.PlainDot

open Idealize.ShloMosaic Idealize.ShloMosaic.ValueIdx

variable (M K N : Nat)

/-- The kernel's product into a zero accumulator, at an output index, whatever the operands' formats. -/
theorem matmul_zero_apply_any {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index, whatever the operands' formats. -/
theorem dotGeneral_apply_any {φ₁ φ₂ : FTy} (prec : Option ContractPrecision) (sched : HostSchedule)
    (A : FVec Ideal ⟨2, ![M, K]⟩ φ₁) (B : FVec Ideal ⟨2, ![K, N]⟩ φ₂) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.LibSideBySide.lean ====
/-
  Two arrays side by side, read at coordinates.

  Concatenating an `[n, a]` array and an `[n, b]` array along the column axis gives an `[n, c]` array, `c = a + b`, whose
  entry `(p, q)` is the left array's `(p, q)` when `q < a` and the right array's `(p, q - a)` otherwise.
-/
import Idealize.ShloMosaic.Lib.Pipeline.Value
import Idealize.ShloMosaic.Lib.ValueIdx

noncomputable section

namespace Idealize.ShloMosaic.SideBySide

open Idealize.ShloMosaic Idealize.ShloMosaic.ValueIdx

variable {α : Type} {n a b c : Nat}

/-- A column of the left part reads the left array. -/
theorem apply_left (A : (⟨2, ![n, a]⟩ : Shape).Idx → α) (B : (⟨2, ![n, b]⟩ : Shape).Idx → α)
    (h : Shape.Concatenates [(⟨2, ![n, a]⟩ : Shape), ⟨2, ![n, b]⟩] ⟨2, ![n, c]⟩ 1) (p : Fin n) (q : Fin c) (hq : q.val < a) :
    concatenate ⟨2, ![n, c]⟩ 1 [⟨⟨2, ![n, a]⟩, A⟩, ⟨⟨2, ![n, b]⟩, B⟩] h (ix2 p q) = A (ix2 p ⟨q.val, hq⟩) :=
  concatenate_pair_apply_left (1 : Fin 2) A B h (ix2 p q) rfl (ix2 p ⟨q.val, hq⟩) (fun ax => by
    match ax with
    | ⟨0, _⟩ => rfl
    | ⟨1, _⟩ => rfl)

/-- A column of the right part reads the right array, the left part's width less. -/
theorem apply_right (A : (⟨2, ![n, a]⟩ : Shape).Idx → α) (B : (⟨2, ![n, b]⟩ : Shape).Idx → α)
    (h : Shape.Concatenates [(⟨2, ![n, a]⟩ : Shape), ⟨2, ![n, b]⟩] ⟨2, ![n, c]⟩ 1) (p : Fin n) (q : Fin c) (hq : a ≤ q.val)
    (hb : q.val - a < b) :
    concatenate ⟨2, ![n, c]⟩ 1 [⟨⟨2, ![n, a]⟩, A⟩, ⟨⟨2, ![n, b]⟩, B⟩] h (ix2 p q) = B (ix2 p ⟨q.val - a, hb⟩) :=
  concatenate_pair_apply_right (1 : Fin 2) A B h (ix2 p q) rfl rfl (ix2 p ⟨q.val - a, hb⟩) (fun ax hax => by
    match ax with
    | ⟨0, _⟩ => rfl
    | ⟨1, _⟩ => exact absurd rfl hax) (by
    show (q.val - a) + a = q.val
    omega)

end Idealize.ShloMosaic.SideBySide

end
-- ==== Proof.LibRowwise.lean ====
/-
  Layers of a network that acts on each row by itself, read along one row.

  An `[R, n]` array is a stack of `R` rows. A product with a fixed `[K, N]` matrix, an entrywise maximum with a constant,
  a block of consecutive columns, and two arrays set side by side all act on every row separately: row `p` of the result
  is a function of row `p` of the operand alone. This file names those four functions of one row (`dense`, `floorAt`,
  `cols`, `join`) and reads the array operations, at the ideal instance, one row at a time. A chain of such layers is then
  read off by rewriting from the outside in, and two programs that tile the rows differently (a kernel that handles a
  block of rows per grid point, a reference that handles all rows at once) meet at the same function of a row.
-/
import Idealize.ShloMosaic.Lib.Pipeline.Value
import Idealize.ShloMosaic.Lib.ValueIdx
import Idealize.ShloMosaic.PureOps.Ideal.Laws
import proofs.«171686_j75977971466925_1_alg».proof.Proof.LibPlainDotAny
import proofs.«171686_j75977971466925_1_alg».proof.Proof.LibSideBySide

noncomputable section

open scoped BigOperators

namespace Idealize.ShloMosaic.Rowwise

open Idealize.ShloMosaic Idealize.ShloMosaic.ValueIdx

/-! ## Functions of one row -/

/-- A row times a matrix: entry `c` is the sum over `k` of `a k * W k c`. -/
def dense {K N : Nat} (a : Fin K → EReal) (W : Fin K → Fin N → EReal) : Fin N → EReal :=
  fun c => ∑ k : Fin K, a k * W k c

/-- Every entry raised to at least `z`. -/
def floorAt {N : Nat} (z : EReal) (a : Fin N → EReal) : Fin N → EReal :=
  fun c => max (a c) z

/-- The `k` consecutive entries of a row that start at `off`. -/
def cols {n : Nat} (off k : Nat) (h : off + k ≤ n) (a : Fin n → EReal) : Fin k → EReal :=
  fun j => a ⟨off + j.val, by have := j.isLt; omega⟩

/-- Two rows end to end. -/
def join {n₁ n₂ n : Nat} (h : n = n₁ + n₂) (a : Fin n₁ → EReal) (b : Fin n₂ → EReal) : Fin n → EReal :=
  fun q => if hq : q.val < n₁ then a ⟨q.val, hq⟩ else b ⟨q.val - n₁, by have := q.isLt; omega⟩

/-! ## Rows of an array, and a matrix by its two coordinates -/

/-- Row `p` of an `[R, n]` array. -/
def row {R n : Nat} (A : (⟨2, ![R, n]⟩ : Shape).Idx → EReal) (p : Fin R) : Fin n → EReal :=
  fun k => A (ix2 p k)

/-- A `[K, N]` array by its two coordinates. -/
def mat {K N : Nat} (B : (⟨2, ![K, N]⟩ : Shape).Idx → EReal) : Fin K → Fin N → EReal :=
  fun k c => B (ix2 k c)

theorem row_apply {R n : Nat} (A : (⟨2, ![R, n]⟩ : Shape).Idx → EReal) (p : Fin R) (k : Fin n) : row A p k = A (ix2 p k) := rfl

/-! ## The array operations, one row at a time -/

/-- A product into a zero accumulator: row `p` of the result is row `p` of the left operand times the right operand. -/
theorem row_matmul {M K N : Nat} {φ₁ φ₂ : FTy} (prec : Option ContractPrecision) (A : FVec Ideal ⟨2, ![M, K]⟩ φ₁)
    (B : FVec Ideal ⟨2, ![K, N]⟩ φ₂) (p : Fin M) :
    row (FloatOps.matmul (DotDims.plain M K N) prec A B (constant ⟨2, ![M, N]⟩ .f32 0x00000000#32)) p
      = dense (row A p) (mat B) := by
  funext c
  exact PlainDot.matmul_zero_apply_any M K N prec A B (ix2 p c)

/-- The host's product: the same function of the row. -/
theorem row_dotGeneral {M K N : Nat} {φ₁ φ₂ : FTy} (prec : Option ContractPrecision) (sched : HostSchedule)
    (A : FVec Ideal ⟨2, ![M, K]⟩ φ₁) (B : FVec Ideal ⟨2, ![K, N]⟩ φ₂) (p : Fin M) :
    row (FloatOps.dotGeneral (DotDims.plain M K N) prec sched A B) p = dense (row A p) (mat B) := by
  funext c
  exact PlainDot.dotGeneral_apply_any M K N prec sched A B (ix2 p c)

/-- An entrywise maximum with an array that holds `z` everywhere. -/
theorem row_maximumf_const {R n : Nat} {φ : FTy} (A Z : FVec Ideal ⟨2, ![R, n]⟩ φ) (z : EReal) (hZ : ∀ i, Z i = z) (p : Fin R) :
    row (maximumf A Z) p = floorAt z (row A p) := by
  funext c
  show max (A (ix2 p c)) (Z (ix2 p c)) = max (A (ix2 p c)) z
  rw [hZ]

/-- A change of float format does nothing at the ideal instance. -/
theorem row_truncf {R n : Nat} {φ ψ : FTy} (A : FVec Ideal ⟨2, ![R, n]⟩ φ) (h : ψ.bits < φ.bits) (p : Fin R) :
    row (truncf ψ A h : FVec Ideal ⟨2, ![R, n]⟩ ψ) p = row A p := rfl

theorem mat_truncf {K N : Nat} {φ ψ : FTy} (B : FVec Ideal ⟨2, ![K, N]⟩ φ) (h : ψ.bits < φ.bits) :
    mat (truncf ψ B h : FVec Ideal ⟨2, ![K, N]⟩ ψ) = mat B := rfl

/-- An entrywise maximum with a scalar repeated over the array. -/
theorem row_maximumf_broadcast {R n : Nat} {φ : FTy} (A : FVec Ideal ⟨2, ![R, n]⟩ φ) (z : Ideal φ) (p : Fin R) :
    row (maximumf A (broadcast ⟨2, ![R, n]⟩ z)) p = floorAt z (row A p) := rfl

/-- An entrywise maximum with a rank-0 constant laid over the array, the host's spelling of the same. -/
theorem row_maximumf_scalarConstant {R n : Nat} (A : FVec Ideal ⟨2, ![R, n]⟩ .f32) (b : BitVec 32)
    (h : (⟨0, ![]⟩ : Shape).BroadcastsInDim ⟨2, ![R, n]⟩ ![]) (p : Fin R) :
    row (maximumf A (broadcastInDim ⟨2, ![R, n]⟩ ![] h (constant (F := Ideal) ⟨0, ![]⟩ .f32 b))) p
      = floorAt (Ideal.ofBits .f32 b) (row A p) := by
  funext c
  show max (A (ix2 p c)) _ = max (A (ix2 p c)) _
  congr 1

/-- A cast of an array to its own shape changes nothing. -/
theorem row_shapeCast_self {R n : Nat} (A : (⟨2, ![R, n]⟩ : Shape).Idx → EReal)
    (h : (⟨2, ![R, n]⟩ : Shape).ShapeCasts ⟨2, ![R, n]⟩) (p : Fin R) :
    row (shapeCast ⟨2, ![R, n]⟩ A h) p = row A p := by
  rw [shapeCast_self]

theorem mat_shapeCast_self {K N : Nat} (B : (⟨2, ![K, N]⟩ : Shape).Idx → EReal)
    (h : (⟨2, ![K, N]⟩ : Shape).ShapeCasts ⟨2, ![K, N]⟩) :
    mat (shapeCast ⟨2, ![K, N]⟩ B h) = mat B := by
  rw [shapeCast_self]

/-- An `[R, 1]` column flattened to an `[R]` vector and stood up again as an `[R, 1]` column is the column it was. -/
theorem row_column_roundtrip {R : Nat} (hR : R ≠ 1) (A : (⟨2, ![R, 1]⟩ : Shape).Idx → EReal)
    (h₁ : (⟨2, ![R, 1]⟩ : Shape).ShapeCasts ⟨1, ![R]⟩)
    (h₂ : (⟨1, ![R]⟩ : Shape).BroadcastsInDim ⟨2, ![R, 1]⟩ ![0]) (p : Fin R) :
    row (broadcastInDim ⟨2, ![R, 1]⟩ ![0] h₂ (shapeCast ⟨1, ![R]⟩ A h₁)) p = row A p := by
  funext k
  show broadcastInDim ⟨2, ![R, 1]⟩ ![0] h₂ (shapeCast ⟨1, ![R]⟩ A h₁) (ix2 p k) = A (ix2 p k)
  rw [broadcastInDim_apply ![0] h₂ _ (ix2 p k) (ix1 p) (fun a => by
    match a with
    | ⟨0, _⟩ => show p.val = if R = 1 then 0 else p.val; rw [if_neg hR])]
  refine shapeCast_apply A h₁ (ix1 p) (ix2 p k) ?_
  rw [Shape.rowMajor_val_two, Shape.rowMajor_val_one]
  show p.val * 1 + k.val = p.val
  have := k.isLt
  omega

/-- A block of `k` columns at `off` lies inside the row. -/
theorem slice_le {R n k off : Nat} (h : (⟨2, ![R, n]⟩ : Shape).Slices ![0, off] ⟨2, ![R, k]⟩) : off + k ≤ n :=
  h.2 1

/-- A block of columns `off ≤ · < off + k` of every row. -/
theorem row_slice {R n k : Nat} (off : Nat) (A : (⟨2, ![R, n]⟩ : Shape).Idx → EReal)
    (h : (⟨2, ![R, n]⟩ : Shape).Slices ![0, off] ⟨2, ![R, k]⟩) (p : Fin R) :
    row (extractStridedSlice ⟨2, ![R, k]⟩ ![0, off] A h) p = cols off k (slice_le h) (row A p) := by
  funext j
  show extractStridedSlice ⟨2, ![R, k]⟩ ![0, off] A h (ix2 p j) = A (ix2 p ⟨off + j.val, _⟩)
  refine extractStridedSlice_apply ![0, off] A h (ix2 p j) _ (fun a => ?_)
  match a with
  | ⟨0, _⟩ => show p.val = 0 + p.val; omega
  | ⟨1, _⟩ => rfl

/-- The joined width is the sum of the two widths. -/
theorem concat_width {R a b c : Nat}
    (h : Shape.Concatenates [(⟨2, ![R, a]⟩ : Shape), ⟨2, ![R, b]⟩] ⟨2, ![R, c]⟩ 1) : c = a + b := by
  have := h.2.2
  simpa using this.symm

/-- Two arrays side by side: every row is the two rows end to end. -/
theorem row_concat {R a b c : Nat} (A : (⟨2, ![R, a]⟩ : Shape).Idx → EReal) (B : (⟨2, ![R, b]⟩ : Shape).Idx → EReal)
    (h : Shape.Concatenates [(⟨2, ![R, a]⟩ : Shape), ⟨2, ![R, b]⟩] ⟨2, ![R, c]⟩ 1) (p : Fin R) :
    row (concatenate ⟨2, ![R, c]⟩ 1 [⟨⟨2, ![R, a]⟩, A⟩, ⟨⟨2, ![R, b]⟩, B⟩] h) p
      = join (concat_width h) (row A p) (row B p) := by
  have hc := concat_width h
  funext q
  unfold join
  by_cases hq : q.val < a
  · rw [dif_pos hq]
    exact SideBySide.apply_left A B h p q hq
  · rw [dif_neg hq]
    exact SideBySide.apply_right A B h p q (by omega) (by have := q.isLt; omega)

end Idealize.ShloMosaic.Rowwise

end
-- ==== Proof.LibKeepdims.lean ====
/-
  Column layouts of a keepdims reduction, read at an index: a length-a vector recast as an [a, 1] column, and an [a, 1]
  column broadcast along the rows of an [a, b] array. (The row forms, [a] → [1, a] and [1, b] → [a, b], are the library's.)
-/
import Idealize.ShloMosaic.Lib.Pipeline.Value
import Idealize.ShloMosaic.Lib.ValueIdx

noncomputable section

namespace Idealize.ShloMosaic.Keepdims

open Idealize.ShloMosaic Idealize.ShloMosaic.ValueIdx

variable {α : Type}

/-- An `[a]` array cast to an `[a, 1]` column reads, at `(i, u)`, the operand at `i`, whatever the unit coordinate `u`:
    both positions are the i-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.LibRowMaps.lean ====
/-
  Entrywise maps and column layouts, read along one row.

  An entrywise operation on `[R, n]` arrays (a product, sum, difference, quotient, negation, exponential, logistic) acts
  on every row by itself: row `p` of the result is that operation applied entry by entry to row `p` of the operands. A
  scalar repeated over the array gives a constant row. An `[R, 1]` column repeated along the columns of an `[R, n]` array
  gives, in row `p`, the column's entry of row `p` at every position; so does an `[R]` vector stood up as an `[R, 1]`
  column. All at the ideal instance, where the kernel's and the host's spellings of an operation are one function.
-/
import proofs.«171686_j75977971466925_1_alg».proof.Proof.LibRowwise
import proofs.«171686_j75977971466925_1_alg».proof.Proof.LibKeepdims

noncomputable section

namespace Idealize.ShloMosaic.Rowwise

open Idealize.ShloMosaic Idealize.ShloMosaic.ValueIdx

variable {R n : Nat} {φ : FTy}

/-! ## Entrywise operations -/

theorem row_mulf (A B : FVec Ideal ⟨2, ![R, n]⟩ φ) (p : Fin R) :
    row (mulf A B) p = fun q => row A p q * row B p q := rfl

theorem row_addf (A B : FVec Ideal ⟨2, ![R, n]⟩ φ) (p : Fin R) :
    row (addf A B) p = fun q => row A p q + row B p q := rfl

theorem row_subf (A B : FVec Ideal ⟨2, ![R, n]⟩ φ) (p : Fin R) :
    row (subf A B) p = fun q => row A p q - row B p q := rfl

/-- The kernel's quotient. -/
theorem row_divf (A B : FVec Ideal ⟨2, ![R, n]⟩ φ) (p : Fin R) :
    row (divf A B) p = fun q => Ideal.div (row A p q) (row B p q) := rfl

/-- The host's quotient: the same function. -/
theorem row_hostDivf (A B : FVec Ideal ⟨2, ![R, n]⟩ φ) (p : Fin R) :
    row (Host.divf A B) p = fun q => Ideal.div (row A p q) (row B p q) := rfl

theorem row_negf (A : FVec Ideal ⟨2, ![R, n]⟩ φ) (p : Fin R) :
    row (negf A) p = fun q => -(row A p q) := rfl

theorem row_hostNegf (A : FVec Ideal ⟨2, ![R, n]⟩ φ) (p : Fin R) :
    row (Host.negf A) p = fun q => -(row A p q) := rfl

theorem row_exp (A : FVec Ideal ⟨2, ![R, n]⟩ φ) (p : Fin R) :
    row (exp A) p = fun q => Ideal.exp (row A p q) := rfl

theorem row_hostExp (A : FVec Ideal ⟨2, ![R, n]⟩ φ) (p : Fin R) :
    row (Host.exp A) p = fun q => Ideal.exp (row A p q) := rfl

theorem row_logistic (A : FVec Ideal ⟨2, ![R, n]⟩ φ) (p : Fin R) :
    row (logistic A) p = fun q => Ideal.logistic (row A p q) := rfl

/-! ## Constant rows -/

/-- A scalar repeated over the array. -/
theorem row_broadcast (z : Ideal φ) (p : Fin R) : row (broadcast ⟨2, ![R, n]⟩ z) p = fun _ => z := rfl

/-- A rank-0 constant laid over the array, the host's spelling of the same. -/
theorem row_scalarConstant (b : BitVec 32) (h : (⟨0, ![]⟩ : Shape).BroadcastsInDim ⟨2, ![R, n]⟩ ![]) (p : Fin R) :
    row (broadcastInDim ⟨2, ![R, n]⟩ ![] h (constant (F := Ideal) ⟨0, ![]⟩ .f32 b)) p = fun _ => Ideal.ofBits .f32 b := rfl

/-! ## A column repeated along the columns -/

/-- The kernel's broadcast of an `[R, 1]` column to `[R, n]`: row `p` holds the column's entry of row `p` throughout. -/
theorem row_broadcastTo_column (v : (⟨2, ![R, 1]⟩ : Shape).Idx → EReal) (h : (⟨2, ![R, 1]⟩ : Shape).Broadcasts ⟨2, ![R, n]⟩)
    (p : Fin R) : row (broadcastTo ⟨2, ![R, n]⟩ v h) p = fun _ => row v p 0 :=
  funext fun q => Keepdims.broadcastTo_a1_ab_apply v h p q

/-- The host's broadcast of an `[R, 1]` column to `[R, n]`, both axes kept in place. -/
theorem row_broadcastInDim_column (v : (⟨2, ![R, 1]⟩ : Shape).Idx → EReal)
    (h : (⟨2, ![R, 1]⟩ : Shape).BroadcastsInDim ⟨2, ![R, n]⟩ ![0, 1]) (p : Fin R) :
    row (broadcastInDim ⟨2, ![R, n]⟩ ![0, 1] h v) p = fun _ => row v p 0 := by
  funext q
  show broadcastInDim ⟨2, ![R, n]⟩ ![0, 1] h v (ix2 p q) = v (ix2 p 0)
  refine broadcastInDim_apply ![0, 1] h v (ix2 p q) (ix2 p 0) fun a => ?_
  match a with
  | ⟨0, _⟩ =>
    show p.val = if R = 1 then 0 else p.val
    split
    · have := p.isLt; omega
    · rfl
  | ⟨1, _⟩ => rfl

/-- An `[R]` vector stood up as an `[R, 1]` column: row `p` holds the vector's entry `p`. -/
theorem row_vector_as_column (x : (⟨1, ![R]⟩ : Shape).Idx → EReal)
    (h : (⟨1, ![R]⟩ : Shape).BroadcastsInDim ⟨2, ![R, 1]⟩ ![0]) (p : Fin R) :
    row (broadcastInDim ⟨2, ![R, 1]⟩ ![0] h x) p = fun _ => x (ix1 p) := by
  funext q
  show broadcastInDim ⟨2, ![R, 1]⟩ ![0] h x (ix2 p q) = x (ix1 p)
  refine broadcastInDim_apply ![0] h x (ix2 p q) (ix1 p) fun a => ?_
  match a with
  | ⟨0, _⟩ =>
    show p.val = if R = 1 then 0 else p.val
    split
    · have := p.isLt; omega
    · rfl

end Idealize.ShloMosaic.Rowwise

end
-- ==== Proof.LibRowOfVector.lean ====
/-
  A vector recast as a one-row matrix, read at an index.

  Recasting an `[n]` vector as a `[1, n]` array keeps the row-major order, so the entry at `(0, i)` is the vector's
  entry `i`.
-/
import Idealize.ShloMosaic.Lib.ValueIdx
import Idealize.ShloMosaic.Lib.Pipeline.Value

noncomputable section

namespace Idealize.ShloMosaic.RowOfVector

open Idealize.ShloMosaic Idealize.ShloMosaic.ValueIdx

variable {α : Type} {n : Nat}

/-- The one-row recast of a vector at `(0, i)` is the vector at `i`. -/
theorem apply (x : (⟨1, ![n]⟩ : Shape).Idx → α) (h : (⟨1, ![n]⟩ : Shape).ShapeCasts ⟨2, ![1, n]⟩) (i : Fin n) :
    shapeCast (⟨2, ![1, n]⟩ : Shape) x h (ix2 (0 : Fin 1) i) = x (ix1 i) := by
  refine shapeCast_apply x h (ix2 (0 : Fin 1) i) (ix1 i) ?_
  rw [Shape.rowMajor_val_one, Shape.rowMajor_val_two]
  show i.val = 0 * n + i.val
  omega

end Idealize.ShloMosaic.RowOfVector

end
-- ==== Proof.LibRowLayouts.lean ====
/-
  Row layouts and weight layouts, read along one row.

  A one-row array `[1, n]` repeated down the rows of an `[R, n]` array puts that one row in every row, in the kernel's
  spelling and in the host's. A vector `[n]` laid out as a `[1, n]` array holds the vector's entries in its only row.
  The transpose of a matrix swaps its two coordinates, and a block of consecutive rows of a taller matrix shifts the
  row coordinate; together they give the `[K, k]` matrix whose column `c` is row `off + c` of a `[Rows, K]` weight
  (`rowsT`): a torch-style weight `[out, in]`, cut into gates along `out` and applied as `x · Wᵀ`. A block of consecutive
  entries of a row times a matrix is the row times the matching block of the matrix's columns. The hyperbolic tangent
  acts entry by entry.
-/
import proofs.«171686_j75977971466925_1_alg».proof.Proof.LibRowMaps
import proofs.«171686_j75977971466925_1_alg».proof.Proof.LibRowOfVector

noncomputable section

open scoped BigOperators

namespace Idealize.ShloMosaic.Rowwise

open Idealize.ShloMosaic Idealize.ShloMosaic.ValueIdx

variable {R n : Nat} {φ : FTy}

/-! ## The hyperbolic tangent, entry by entry -/

theorem row_tanh (A : FVec Ideal ⟨2, ![R, n]⟩ φ) (p : Fin R) :
    row (tanh A) p = fun q => Ideal.tanh (row A p q) := rfl

theorem row_hostTanh (A : FVec Ideal ⟨2, ![R, n]⟩ φ) (p : Fin R) :
    row (Host.tanh A) p = fun q => Ideal.tanh (row A p q) := rfl

/-! ## One row repeated down the rows -/

/-- A vector's entries by position. -/
def vec (x : (⟨1, ![n]⟩ : Shape).Idx → EReal) : Fin n → EReal := fun q => x (ix1 q)

/-- The kernel's broadcast of a `[1, n]` array to `[R, n]`: every row is the one row. -/
theorem row_broadcastTo_row (v : (⟨2, ![1, n]⟩ : Shape).Idx → EReal)
    (h : (⟨2, ![1, n]⟩ : Shape).Broadcasts ⟨2, ![R, n]⟩) (p : Fin R) :
    row (broadcastTo ⟨2, ![R, n]⟩ v h) p = row v 0 := by
  funext q
  show broadcastTo ⟨2, ![R, n]⟩ v h (ix2 p q) = v (ix2 0 q)
  refine broadcastTo_apply v h (ix2 p q) (ix2 0 q) fun a => ?_
  match a with
  | ⟨0, _⟩ =>
    show (0 : ℕ) = if (1 : ℕ) = 1 then 0 else p.val
    rw [if_pos rfl]
  | ⟨1, _⟩ =>
    show q.val = if n = 1 then 0 else q.val
    split
    · have := q.isLt; omega
    · rfl

/-- The host's broadcast of a `[1, n]` array to `[R, n]`, both axes kept in place: the same. -/
theorem row_broadcastInDim_row (v : (⟨2, ![1, n]⟩ : Shape).Idx → EReal)
    (h : (⟨2, ![1, n]⟩ : Shape).BroadcastsInDim ⟨2, ![R, n]⟩ ![0, 1]) (p : Fin R) :
    row (broadcastInDim ⟨2, ![R, n]⟩ ![0, 1] h v) p = row v 0 := by
  funext q
  show broadcastInDim ⟨2, ![R, n]⟩ ![0, 1] h v (ix2 p q) = v (ix2 0 q)
  refine broadcastInDim_apply ![0, 1] h v (ix2 p q) (ix2 0 q) fun a => ?_
  match a with
  | ⟨0, _⟩ =>
    show (0 : ℕ) = if (1 : ℕ) = 1 then 0 else p.val
    rw [if_pos rfl]
  | ⟨1, _⟩ =>
    show q.val = if n = 1 then 0 else q.val
    split
    · have := q.isLt; omega
    · rfl

/-- The host's layout of an `[n]` vector as a `[1, n]` array, the vector's axis sent to the columns. -/
theorem row_vector_as_row (x : (⟨1, ![n]⟩ : Shape).Idx → EReal)
    (h : (⟨1, ![n]⟩ : Shape).BroadcastsInDim ⟨2, ![1, n]⟩ ![1]) :
    row (broadcastInDim ⟨2, ![1, n]⟩ ![1] h x) 0 = vec x := by
  funext q
  show broadcastInDim ⟨2, ![1, n]⟩ ![1] h x (ix2 0 q) = x (ix1 q)
  refine broadcastInDim_apply ![1] h x (ix2 0 q) (ix1 q) fun a => ?_
  match a with
  | ⟨0, _⟩ =>
    show q.val = if n = 1 then 0 else q.val
    split
    · have := q.isLt; omega
    · rfl

/-- An `[n]` vector recast as a `[1, n]` array: the same row. -/
theorem row_reshape_vector (x : (⟨1, ![n]⟩ : Shape).Idx → EReal) (h : (⟨1, ![n]⟩ : Shape).ShapeCasts ⟨2, ![1, n]⟩) :
    row (shapeCast ⟨2, ![1, n]⟩ x h) 0 = vec x :=
  funext fun q => RowOfVector.apply x h q

/-! ## A weight read by its two coordinates -/

/-- The transpose of a matrix, by coordinates. -/
def matT {N K : Nat} (W : Fin N → Fin K → EReal) : Fin K → Fin N → EReal := fun k c => W c k

/-- The `[K, k]` matrix whose column `c` is row `off + c` of a `[Rows, K]` matrix: the transpose of a block of rows. -/
def rowsT {Rows K : Nat} (off k : Nat) (h : off + k ≤ Rows) (W : Fin Rows → Fin K → EReal) : Fin K → Fin k → EReal :=
  fun kk c => W ⟨off + c.val, by have := c.isLt; omega⟩ kk

/-- The transpose of an `[N, K]` array is read with its coordinates swapped. -/
theorem mat_transpose {N K : Nat} (B : (⟨2, ![N, K]⟩ : Shape).Idx → EReal)
    (h : (⟨2, ![N, K]⟩ : Shape).Transposes [1, 0] ⟨2, ![K, N]⟩) :
    mat (transpose ⟨2, ![K, N]⟩ [1, 0] B h) = matT (mat B) := by
  funext k c
  show transpose ⟨2, ![K, N]⟩ [1, 0] B h (ix2 k c) = B (ix2 c k)
  exact transpose_apply [1, 0] B h (ix2 k c) (ix2 c k) (fun b => match b with
    | ⟨0, _⟩ => rfl
    | ⟨1, _⟩ => rfl)

/-- A block of `k` rows at `off` lies inside the matrix. -/
theorem rowBlock_le {Rows K k off : Nat} (h : (⟨2, ![Rows, K]⟩ : Shape).Slices ![off, 0] ⟨2, ![k, K]⟩) : off + k ≤ Rows :=
  h.2 0

/-- The transpose of the block of rows `off ≤ · < off + k` of a matrix is `rowsT` of the matrix. -/
theorem mat_transpose_rowBlock {Rows K k : Nat} (off : Nat) (B : (⟨2, ![Rows, K]⟩ : Shape).Idx → EReal)
    (hs : (⟨2, ![Rows, K]⟩ : Shape).Slices ![off, 0] ⟨2, ![k, K]⟩)
    (ht : (⟨2, ![k, K]⟩ : Shape).Transposes [1, 0] ⟨2, ![K, k]⟩) :
    mat (transpose ⟨2, ![K, k]⟩ [1, 0] (extractStridedSlice ⟨2, ![k, K]⟩ ![off, 0] B hs) ht)
      = rowsT off k (rowBlock_le hs) (mat B) := by
  rw [mat_transpose]
  funext kk c
  show extractStridedSlice ⟨2, ![k, K]⟩ ![off, 0] B hs (ix2 c kk) = B (ix2 ⟨off + c.val, _⟩ kk)
  refine extractStridedSlice_apply ![off, 0] B hs (ix2 c kk) _ (fun a => ?_)
  match a with
  | ⟨0, _⟩ => rfl
  | ⟨1, _⟩ => show kk.val = 0 + kk.val; omega

/-- A block of consecutive entries of a row times a matrix: the row times that block of the matrix's columns. -/
theorem cols_dense {K N : Nat} (off k : Nat) (h : off + k ≤ N) (a : Fin K → EReal) (W : Fin K → Fin N → EReal) :
    cols off k h (dense a W) = dense a (fun kk c => W kk ⟨off + c.val, by have := c.isLt; omega⟩) := rfl

/-- Columns `off ≤ · < off + k` of the transpose of a `[Rows, K]` matrix are `rowsT` of the matrix. -/
theorem cols_dense_matT {Rows K : Nat} (off k : Nat) (h : off + k ≤ Rows) (a : Fin K → EReal) (W : Fin Rows → Fin K → EReal) :
    cols off k h (dense a (matT W)) = dense a (rowsT off k h W) := rfl

end Idealize.ShloMosaic.Rowwise

end
-- ==== Proof.Layers.lean ====
/-
  The layers of a two-layer graph convolution network, each as one function of a row.

  Every dense step of the network acts on the rows of an `[R, n]` array one at a time: a product with a fixed weight
  matrix sends row `a` to `c ↦ ∑ k, a k * W k c`; adding a bias vector and flooring at zero sends row `a` to
  `q ↦ max (a q + b q) 0`; a product followed by a bias sends it to `q ↦ (∑ k, a k * W k q) + b q`. This file names
  the three whole-array functions built from those row functions and shows that the host's spelling of each layer
  (a `dot_general`, a bias vector laid as a row and repeated down the rows, a maximum with a rank-0 zero) and the
  kernel's spelling on one block of rows (operands narrowed to another float format, which changes nothing on the
  extended reals, a product into a zero accumulator, a one-row bias repeated down the block) are those functions.
  Sums over the shared axis are the same sum in the same order on both sides, so no law of the extended reals
  beyond reading each operation at an index is used.
-/
import proofs.«171686_j75977971466925_1_alg».proof.Proof.LibRowLayouts

noncomputable section

open scoped BigOperators

namespace Gcn

open Idealize.ShloMosaic Idealize.ShloMosaic.ValueIdx Idealize.ShloMosaic.Rowwise

/-! ## Arrays by their rows -/

/-- The `[R, n]` array whose row `p` is `f p`. -/
def ofRows {R n : Nat} (f : Fin R → Fin n → EReal) : (⟨2, ![R, n]⟩ : Shape).Idx → EReal := fun i => f (i 0) (i 1)

theorem row_ofRows {R n : Nat} (f : Fin R → Fin n → EReal) (p : Fin R) : row (ofRows f) p = f p := rfl

/-- Two arrays with the same rows are the same array. -/
theorem ext_rows {R n : Nat} {X Y : (⟨2, ![R, n]⟩ : Shape).Idx → EReal} (h : ∀ p : Fin R, row X p = row Y p) : X = Y := by
  funext i
  rw [eq_ix2 i]
  exact congrFun (h (i 0)) (i 1)

/-! ## The three layers -/

/-- The zero every activation is floored at: the float `+0.0` read on the extended reals. -/
abbrev zero : EReal := Ideal.ofBits .f32 0x00000000#32

/-- A bias added to a row, the sum floored at zero. -/
def act {n : Nat} (b a : Fin n → EReal) : Fin n → EReal := floorAt zero fun q => a q + b q

/-- A row times a weight matrix, plus a bias. -/
def affine {K N : Nat} (W : Fin K → Fin N → EReal) (b : Fin N → EReal) (a : Fin K → EReal) : Fin N → EReal :=
  fun q => dense a W q + b q

/-- Every row of `A` times the matrix `B`. -/
def linear {M K N : Nat} (A : (⟨2, ![M, K]⟩ : Shape).Idx → EReal) (B : (⟨2, ![K, N]⟩ : Shape).Idx → EReal) :
    (⟨2, ![M, N]⟩ : Shape).Idx → EReal := ofRows fun p => dense (row A p) (mat B)

/-- The bias vector `b` added to every row of `A`, floored at zero. -/
def biasRelu {M N : Nat} (A : (⟨2, ![M, N]⟩ : Shape).Idx → EReal) (b : (⟨1, ![N]⟩ : Shape).Idx → EReal) :
    (⟨2, ![M, N]⟩ : Shape).Idx → EReal := ofRows fun p => act (vec b) (row A p)

/-- Every row of `A` times `B`, plus the bias vector `b`. -/
def linearBias {M K N : Nat} (A : (⟨2, ![M, K]⟩ : Shape).Idx → EReal) (B : (⟨2, ![K, N]⟩ : Shape).Idx → EReal)
    (b : (⟨1, ![N]⟩ : Shape).Idx → EReal) : (⟨2, ![M, N]⟩ : Shape).Idx → EReal :=
  ofRows fun p => affine (mat B) (vec b) (row A p)

/-- `biasRelu` with the bias given as a row. -/
def biasReluRow {M N : Nat} (A : (⟨2, ![M, N]⟩ : Shape).Idx → EReal) (r : Fin N → EReal) :
    (⟨2, ![M, N]⟩ : Shape).Idx → EReal := ofRows fun p => act r (row A p)

/-- `linearBias` with the bias given as a row. -/
def linearBiasRow {M K N : Nat} (A : (⟨2, ![M, K]⟩ : Shape).Idx → EReal) (B : (⟨2, ![K, N]⟩ : Shape).Idx → EReal)
    (r : Fin N → EReal) : (⟨2, ![M, N]⟩ : Shape).Idx → EReal := ofRows fun p => affine (mat B) r (row A p)

theorem biasRelu_eq_row {M N : Nat} (A : (⟨2, ![M, N]⟩ : Shape).Idx → EReal) (b : (⟨1, ![N]⟩ : Shape).Idx → EReal) :
    biasRelu A b = biasReluRow A (vec b) := rfl

theorem linearBias_eq_row {M K N : Nat} (A : (⟨2, ![M, K]⟩ : Shape).Idx → EReal) (B : (⟨2, ![K, N]⟩ : Shape).Idx → EReal)
    (b : (⟨1, ![N]⟩ : Shape).Idx → EReal) : linearBias A B b = linearBiasRow A B (vec b) := rfl

/-- The only row of a bias vector recast as a one-row array is the vector. -/
theorem row_of_recast {N : Nat} (b : (⟨1, ![N]⟩ : Shape).Idx → EReal) (h : (⟨1, ![N]⟩ : Shape).ShapeCasts ⟨2, ![1, N]⟩) :
    row (shapeCast ⟨2, ![1, N]⟩ b h) 0 = vec b := row_reshape_vector b h

/-! ## The host's spelling -/

/-- The host's product over a plain dimension record is `linear`. -/
theorem hostLinear_eq {M K N : Nat} (d : DotDims ⟨2, ![M, K]⟩ ⟨2, ![K, N]⟩ ⟨2, ![M, N]⟩) (hd : d = DotDims.plain M K N)
    (A : FVec Ideal ⟨2, ![M, K]⟩ .f32) (B : FVec Ideal ⟨2, ![K, N]⟩ .f32) :
    Host.dotGeneral d none A B = linear A B := by
  subst hd
  exact ext_rows fun p => row_dotGeneral none .single A B p

/-- The host's bias-and-floor: the bias vector laid as a one-row array, repeated down the rows, added, and the sum
    raised to at least a rank-0 zero laid over the array. -/
theorem hostBiasRelu_eq {M N : Nat} (A : FVec Ideal ⟨2, ![M, N]⟩ .f32) (b : FVec Ideal ⟨1, ![N]⟩ .f32)
    (h₁ : (⟨1, ![N]⟩ : Shape).BroadcastsInDim ⟨2, ![1, N]⟩ ![1])
    (h₂ : (⟨2, ![1, N]⟩ : Shape).BroadcastsInDim ⟨2, ![M, N]⟩ ![0, 1])
    (h₀ : (⟨0, ![]⟩ : Shape).BroadcastsInDim ⟨2, ![M, N]⟩ ![]) :
    maximumf (addf A (broadcastInDim ⟨2, ![M, N]⟩ ![0, 1] h₂ (broadcastInDim ⟨2, ![1, N]⟩ ![1] h₁ b)))
        (broadcastInDim ⟨2, ![M, N]⟩ ![] h₀ (constant (F := Ideal) ⟨0, ![]⟩ .f32 0x00000000#32))
      = biasRelu A b := by
  refine ext_rows fun p => ?_
  rw [row_maximumf_scalarConstant, row_addf, row_broadcastInDim_row, row_vector_as_row]
  rfl

/-- The host's product plus a bias vector laid as a row and repeated down the rows. -/
theorem hostLinearBias_eq {M K N : Nat} (d : DotDims ⟨2, ![M, K]⟩ ⟨2, ![K, N]⟩ ⟨2, ![M, N]⟩) (hd : d = DotDims.plain M K N)
    (A : FVec Ideal ⟨2, ![M, K]⟩ .f32) (B : FVec Ideal ⟨2, ![K, N]⟩ .f32) (b : FVec Ideal ⟨1, ![N]⟩ .f32)
    (h₁ : (⟨1, ![N]⟩ : Shape).BroadcastsInDim ⟨2, ![1, N]⟩ ![1])
    (h₂ : (⟨2, ![1, N]⟩ : Shape).BroadcastsInDim ⟨2, ![M, N]⟩ ![0, 1]) :
    addf (Host.dotGeneral d none A B) (broadcastInDim ⟨2, ![M, N]⟩ ![0, 1] h₂ (broadcastInDim ⟨2, ![1, N]⟩ ![1] h₁ b))
      = linearBias A B b := by
  subst hd
  refine ext_rows fun p => ?_
  rw [row_addf, row_dotGeneral, row_broadcastInDim_row, row_vector_as_row]
  rfl

/-! ## The kernel's spelling, on one block of rows -/

/-- The block's product: both operands narrowed, multiplied into a zero accumulator. Row `p` of the result is row `p`
    of the block times the weight. -/
theorem blockLinear_row {P K N : Nat} (d : DotDims ⟨2, ![P, K]⟩ ⟨2, ![K, N]⟩ ⟨2, ![P, N]⟩) (hd : d = DotDims.plain P K N)
    {ψ : FTy} (hψ : ψ.bits < FTy.f32.bits) (x : FVec Ideal ⟨2, ![P, K]⟩ .f32) (w : FVec Ideal ⟨2, ![K, N]⟩ .f32) (p : Fin P) :
    row (matmul d none (truncf ψ x hψ) (truncf ψ w hψ) (constant ⟨2, ![P, N]⟩ .f32 0x00000000#32)) p
      = dense (row x p) (mat w) := by
  subst hd
  rw [row_matmul, row_truncf, mat_truncf]

/-- The block's bias-and-floor: the one-row bias repeated down the block, added, the sum raised to at least a repeated
    scalar zero. Row `p` of the result is `act` of the bias row and row `p` of the block. -/
theorem blockBiasRelu_row {P N : Nat} (x : FVec Ideal ⟨2, ![P, N]⟩ .f32) (b : FVec Ideal ⟨2, ![1, N]⟩ .f32)
    (h : (⟨2, ![1, N]⟩ : Shape).Broadcasts ⟨2, ![P, N]⟩) (p : Fin P) :
    row (maximumf (addf x (broadcastTo ⟨2, ![P, N]⟩ b h)) (broadcast ⟨2, ![P, N]⟩ (Scalar.ofBits (F := Ideal) .f32 0x00000000#32))) p
      = act (row b 0) (row x p) := by
  rw [row_maximumf_broadcast, row_addf, row_broadcastTo_row]
  rfl

/-- The block's product plus the one-row bias repeated down the block. -/
theorem blockLinearBias_row {P K N : Nat} (d : DotDims ⟨2, ![P, K]⟩ ⟨2, ![K, N]⟩ ⟨2, ![P, N]⟩) (hd : d = DotDims.plain P K N)
    {ψ : FTy} (hψ : ψ.bits < FTy.f32.bits) (x : FVec Ideal ⟨2, ![P, K]⟩ .f32) (w : FVec Ideal ⟨2, ![K, N]⟩ .f32)
    (b : FVec Ideal ⟨2, ![1, N]⟩ .f32) (h : (⟨2, ![1, N]⟩ : Shape).Broadcasts ⟨2, ![P, N]⟩) (p : Fin P) :
    row (addf (matmul d none (truncf ψ x hψ) (truncf ψ w hψ) (constant ⟨2, ![P, N]⟩ .f32 0x00000000#32))
        (broadcastTo ⟨2, ![P, N]⟩ b h)) p
      = affine (mat w) (row b 0) (row x p) := by
  subst hd
  rw [row_addf, row_matmul, row_truncf, mat_truncf, row_broadcastTo_row]
  rfl

end Gcn

end
-- ==== Proof.Region0.lean ====
/-
  The first dense layer's region: the array it leaves.

  The region walks the 100000 rows of its left operand in 20 blocks of 5000 rows; at point `t` it loads rows
  `5000 t … 5000 t + 4999` and the whole weight matrix, multiplies them, and writes the product back as rows
  `5000 t … 5000 t + 4999` of the result. Row `p` of the block's product is row `p` of the block times the weight,
  and row `p` of block `t` is row `5000 t + p` of the operand, so what point `t` writes back is block `t` of
  `Gcn.linear` of the two operand arrays. The 20 blocks cover every row, hence the result array ends at
  `Gcn.linear` of the operands as the region found them.
-/
import proofs.«171686_j75977971466925_1_alg».proof.Proof.Gen.KernelIdeal.Frame
import proofs.«171686_j75977971466925_1_alg».proof.Proof.Layers
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.ValueIdx Idealize.ShloMosaic.Rowwise
open Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The product's dimension numbers are the plain ones: rows by the shared axis, times the shared axis by columns. -/
theorem dims_plain : dot_S5000x165_S165x128_S5000x128_1_0_0_1_n_n = DotDims.plain 5000 165 128 := rfl

/-- The block index maps over the grid: the left operand's and the result's block row is the point's number, the
    weight's block is always the first. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of the body's product is row `p` of the loaded block times the loaded weight. -/
theorem payload_row (x : Vec Ideal S5000x165 .f32) (w : Vec Ideal S165x128 .f32) (p : Fin 5000) :
    row (k0_pay1 x w) p = dense (row x p) (mat w) := by
  unfold k0_pay1
  exact Gcn.blockLinear_row _ dims_plain _ x w p

/-- Entry `(p, k)` of the left operand's block at point `t` is entry `(5000 t + p, k)` of the operand. -/
theorem left_read (c : Dev nD) (t : Fin cfg0.N) (p : Fin 5000) (k : Fin 165) (hr : t.val * 5000 + p.val < 100000) :
    iblk0 V c 0 t (ix2 p k) = V c main_arg0 (ix2 ⟨t.val * 5000 + p.val, hr⟩ k) := by
  show V c main_arg0 (((cfg0.win 0).blk t).view.emb (ix2 p k)) = _
  refine congrArg (V c main_arg0) ?_
  obtain ⟨e0, e1, -⟩ := block_indices t
  funext a; apply Fin.ext
  match a with
  | ⟨0, _⟩ => show win0_0.index t (0 : Fin 2) * 5000 + 1 * p.val = t.val * 5000 + p.val; omega
  | ⟨1, _⟩ => show win0_0.index t (1 : Fin 2) * 165 + 1 * k.val = k.val; omega

/-- The weight's block at any point is the whole weight. -/
theorem weight_read (c : Dev nD) (t : Fin cfg0.N) (k : Fin 165) (q : Fin 128) :
    iblk0 V c 1 t (ix2 k q) = V c main_arg2 (ix2 k q) := by
  show V c main_arg2 (((cfg0.win 1).blk t).view.emb (ix2 k q)) = _
  refine congrArg (V c main_arg2) ?_
  obtain ⟨-, -, e2, e3, -⟩ := block_indices t
  funext a; apply Fin.ext
  match a with
  | ⟨0, _⟩ => show win0_1.index t (0 : Fin 2) * 165 + 1 * k.val = k.val; omega
  | ⟨1, _⟩ => show win0_1.index t (1 : Fin 2) * 128 + 1 * q.val = q.val; omega

/-- Position `(p, q)` of the result's block at point `t` is position `(5000 t + p, q)` of the result. -/
theorem out_emb (t : Fin cfg0.N) (p : Fin 5000) (q : Fin 128) (hr : t.val * 5000 + p.val < 100000) :
    ((cfg0.win 2).blk t).view.emb (ix2 p q) = (ix2 ⟨t.val * 5000 + p.val, hr⟩ q : S100000x128.Idx) := by
  obtain ⟨-, -, -, -, e4, e5⟩ := block_indices t
  funext a; apply Fin.ext
  match a with
  | ⟨0, _⟩ => show win0_2.index t (0 : Fin 2) * 5000 + 1 * p.val = t.val * 5000 + p.val; omega
  | ⟨1, _⟩ => show win0_2.index t (1 : Fin 2) * 128 + 1 * q.val = q.val; omega

/-- What point `t` writes back is block `t` of the dense layer of the two operand arrays. -/
theorem flushed_eq (c : Dev nD) (t : Fin cfg0.N) :
    (dat0 V c).flushed 2 t = ((cfg0.win 2).blk t).view.read (Elt Ideal) (Gcn.linear (V c main_arg0) (V c main_arg2)) := by
  show (cfg0.win 2).cut (grid0.coords t) ((dat0 V c).after 2 t) = _
  rw [after0_2]
  unfold out0_2
  rw [View.canon_unit_zero origin]
  simp only [View.ld_unit_zero (S := S5000x165) origin, View.ld_unit_zero (S := S165x128) origin]
  funext j
  obtain ⟨p, q, rfl⟩ : ∃ (p : Fin 5000) (q : Fin 128), j = ix2 p q := ⟨j 0, j 1, eq_ix2 j⟩
  have ht : t.val < 20 := t.isLt
  have hr : t.val * 5000 + p.val < 100000 := by have := p.isLt; omega
  show row (k0_pay1 (iblk0 V c 0 t) (iblk0 V c 1 t)) p q
    = Gcn.linear (V c main_arg0) (V c main_arg2) (((cfg0.win 2).blk t).view.emb (ix2 p q))
  rw [out_emb t p q hr]
  refine (congrFun (payload_row (iblk0 V c 0 t) (iblk0 V c 1 t) p) q).trans ?_
  show dense (row (iblk0 V c 0 t) p) (mat (iblk0 V c 1 t)) q
    = dense (row (V c main_arg0) ⟨t.val * 5000 + p.val, hr⟩) (mat (V c main_arg2)) q
  have hrow : row (iblk0 V c 0 t) p = row (V c main_arg0) ⟨t.val * 5000 + p.val, hr⟩ :=
    funext fun k => left_read V c t p k hr
  have hmat : mat (iblk0 V c 1 t) = mat (V c main_arg2) :=
    funext fun k => funext fun q' => weight_read V c t k q'
  rw [hrow, hmat]

/-- An index of the result is in point `t`'s block iff each coordinate is in the block's range on its axis. -/
theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v27).slice (win0_2.rect t)).set ↔ _
  rw [View.set_slice_whole, Rect.mem_set_unit]
  exact Iff.rfl

/-- Every index of the result lies in the block of the point that owns its row. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  let t : Fin cfg0.N := ⟨(i 0).val / 5000, by show (i 0).val / 5000 < 20; omega⟩
  have htv : t.val = (i 0).val / 5000 := rfl
  obtain ⟨-, -, -, -, e4, e5⟩ := block_indices t
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The result array after the region: the dense layer of the two operand arrays as the region found them. -/
theorem final (c : Dev nD) :
    (dat0 V c).arrAt 2 cfg0.N = Gcn.linear (V c main_arg0) (V c main_arg2) :=
  (dat0 V c).arrAt_eq_of_cover 2 _ (fun t _ => flushed_eq V c t) covered

end Cert.KernelIdeal.Region0

end
-- ==== Proof.Region1.lean ====
/-
  The first activation's region: the array it leaves.

  The region walks the 100000 rows of the aggregated features in 20 blocks of 5000 rows; at point `t` it loads rows
  `5000 t … 5000 t + 4999` and the one-row bias, adds the bias to every row, floors the sums at zero, and writes the
  block back in place. Row `p` of the block's result is `Gcn.act` of the bias row and row `p` of the block, and
  row `p` of block `t` is row `5000 t + p` of the operand, so what point `t` writes back is block `t` of
  `Gcn.biasReluRow` of the operand and the bias row. The 20 blocks cover every row.
-/
import proofs.«171686_j75977971466925_1_alg».proof.Proof.Gen.KernelIdeal.Frame
import proofs.«171686_j75977971466925_1_alg».proof.Proof.Layers
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.ValueIdx Idealize.ShloMosaic.Rowwise
open Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The block index maps over the grid: the operand's and the result's block row is the point's number, the bias
    row's block is always the first. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `p` of the body's result: the bias row added to row `p` of the loaded block, floored at zero. The casts of
    an array to its own shape change nothing. -/
theorem payload_row (b : Vec Ideal S1x128 .f32) (x : Vec Ideal S5000x128 .f32) (p : Fin 5000) :
    row (k1_pay1 b x) p = Gcn.act (row b 0) (row x p) := by
  unfold k1_pay1
  dsimp only
  rw [shapeCast_self, shapeCast_self, shapeCast_self]
  exact Gcn.blockBiasRelu_row x b _ p

/-- Entry `(p, k)` of the operand's block at point `t` is entry `(5000 t + p, k)` of the operand. -/
theorem left_read (c : Dev nD) (t : Fin cfg1.N) (p : Fin 5000) (k : Fin 128) (hr : t.val * 5000 + p.val < 100000) :
    iblk1 V c 0 t (ix2 p k) = V c main_v44 (ix2 ⟨t.val * 5000 + p.val, hr⟩ k) := by
  show V c main_v44 (((cfg1.win 0).blk t).view.emb (ix2 p k)) = _
  refine congrArg (V c main_v44) ?_
  obtain ⟨e0, e1, -⟩ := block_indices t
  funext a; apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega

/-- The bias row's block at any point is the whole one-row array. -/
theorem bias_read (c : Dev nD) (t : Fin cfg1.N) (z : Fin 1) (q : Fin 128) :
    iblk1 V c 1 t (ix2 z q) = V c main_v45 (ix2 z q) := by
  show V c main_v45 (((cfg1.win 1).blk t).view.emb (ix2 z q)) = _
  refine congrArg (V c main_v45) ?_
  obtain ⟨-, -, e2, e3, -⟩ := block_indices t
  funext a; apply Fin.ext
  match a with
  | ⟨0, _⟩ => show win1_1.index t (0 : Fin 2) * 1 + 1 * z.val = z.val; omega
  | ⟨1, _⟩ => show win1_1.index t (1 : Fin 2) * 128 + 1 * q.val = q.val; omega

/-- Position `(p, q)` of the result's block at point `t` is position `(5000 t + p, q)` of the result. -/
theorem out_emb (t : Fin cfg1.N) (p : Fin 5000) (q : Fin 128) (hr : t.val * 5000 + p.val < 100000) :
    ((cfg1.win 2).blk t).view.emb (ix2 p q) = (ix2 ⟨t.val * 5000 + p.val, hr⟩ q : S100000x128.Idx) := by
  obtain ⟨-, -, -, -, e4, e5⟩ := block_indices t
  funext a; apply Fin.ext
  match a with
  | ⟨0, _⟩ => show win1_2.index t (0 : Fin 2) * 5000 + 1 * p.val = t.val * 5000 + p.val; omega
  | ⟨1, _⟩ => show win1_2.index t (1 : Fin 2) * 128 + 1 * q.val = q.val; omega

/-- What point `t` writes back is block `t` of the activation of the operand array under the bias row. -/
theorem flushed_eq (c : Dev nD) (t : Fin cfg1.N) :
    (dat1 V c).flushed 2 t
      = ((cfg1.win 2).blk t).view.read (Elt Ideal) (Gcn.biasReluRow (V c main_v44) (row (V c main_v45) 0)) := by
  show (cfg1.win 2).cut (grid1.coords t) ((dat1 V c).after 2 t) = _
  rw [after1_2]
  unfold out1_2
  rw [View.canon_unit_zero origin]
  simp only [View.ld_unit_zero (S := S5000x128) origin, View.ld_unit_zero (S := S1x128) origin]
  funext j
  obtain ⟨p, q, rfl⟩ : ∃ (p : Fin 5000) (q : Fin 128), j = ix2 p q := ⟨j 0, j 1, eq_ix2 j⟩
  have ht : t.val < 20 := t.isLt
  have hr : t.val * 5000 + p.val < 100000 := by have := p.isLt; omega
  show row (k1_pay1 (iblk1 V c 1 t) (iblk1 V c 0 t)) p q
    = Gcn.biasReluRow (V c main_v44) (row (V c main_v45) 0) (((cfg1.win 2).blk t).view.emb (ix2 p q))
  rw [out_emb t p q hr]
  refine (congrFun (payload_row (iblk1 V c 1 t) (iblk1 V c 0 t) p) q).trans ?_
  show Gcn.act (row (iblk1 V c 1 t) 0) (row (iblk1 V c 0 t) p) q
    = Gcn.act (row (V c main_v45) 0) (row (V c main_v44) ⟨t.val * 5000 + p.val, hr⟩) q
  have hrow : row (iblk1 V c 0 t) p = row (V c main_v44) ⟨t.val * 5000 + p.val, hr⟩ :=
    funext fun k => left_read V c t p k hr
  have hbias : row (iblk1 V c 1 t) 0 = row (V c main_v45) 0 :=
    funext fun q' => bias_read V c t 0 q'
  rw [hrow, hbias]

/-- An index of the result is in point `t`'s block iff each coordinate is in the block's range on its axis. -/
theorem mem_block (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v46).slice (win1_2.rect t)).set ↔ _
  rw [View.set_slice_whole, Rect.mem_set_unit]
  exact Iff.rfl

/-- Every index of the result lies in the block of the point that owns its row. -/
theorem covered (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  let t : Fin cfg1.N := ⟨(i 0).val / 5000, by show (i 0).val / 5000 < 20; omega⟩
  have htv : t.val = (i 0).val / 5000 := rfl
  obtain ⟨-, -, -, -, e4, e5⟩ := block_indices t
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The result array after the region: the activation of the operand array under the bias row, both as the region
    found them. -/
theorem final (c : Dev nD) :
    (dat1 V c).arrAt 2 cfg1.N = Gcn.biasReluRow (V c main_v44) (row (V c main_v45) 0) :=
  (dat1 V c).arrAt_eq_of_cover 2 _ (fun t _ => flushed_eq V c t) covered

end Cert.KernelIdeal.Region1

end
-- ==== Proof.Region2.lean ====
/-
  The second dense layer's region: the array it leaves.

  As in the first dense layer, now on the activated features: 20 blocks of 5000 rows of a `[100000, 128]` array, each
  multiplied by the whole `[128, 64]` weight and written back as the same rows of the `[100000, 64]` result. The body
  first casts the loaded block to its own shape, which changes nothing. Row `p` of block `t` is row `5000 t + p`, so
  point `t` writes back block `t` of `Gcn.linear` of the two operand arrays, and the blocks cover every row.
-/
import proofs.«171686_j75977971466925_1_alg».proof.Proof.Gen.KernelIdeal.Frame
import proofs.«171686_j75977971466925_1_alg».proof.Proof.Layers
import Idealize.ShloMosaic.Lib.Pipeline.Value

set_option maxRecDepth 16384

noncomputable section

namespace Cert.KernelIdeal.Region2

open Cert.KernelIdeal Cert.KernelIdeal.Gen
open Idealize.ShloMosaic Idealize.ShloMosaic.TcCoe Idealize.ShloMosaic.ValueIdx Idealize.ShloMosaic.Rowwise
open Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The product's dimension numbers are the plain ones. -/
theorem dims_plain : dot_S5000x128_S128x64_S5000x64_1_0_0_1_n_n = DotDims.plain 5000 128 64 := rfl

/-- The block index maps over the grid: the left operand's and the result's block row is the point's number, the
    weight's block is always the first. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row `p` of the body's product is row `p` of the loaded block times the loaded weight. -/
theorem payload_row (x : Vec Ideal S5000x128 .f32) (w : Vec Ideal S128x64 .f32) (p : Fin 5000) :
    row (k2_pay1 x w) p = dense (row x p) (mat w) := by
  unfold k2_pay1
  dsimp only
  rw [shapeCast_self]
  exact Gcn.blockLinear_row _ dims_plain _ x w p

/-- Entry `(p, k)` of the left operand's block at point `t` is entry `(5000 t + p, k)` of the operand. -/
theorem left_read (c : Dev nD) (t : Fin cfg2.N) (p : Fin 5000) (k : Fin 128) (hr : t.val * 5000 + p.val < 100000) :
    iblk2 V c 0 t (ix2 p k) = V c main_v46 (ix2 ⟨t.val * 5000 + p.val, hr⟩ k) := by
  show V c main_v46 (((cfg2.win 0).blk t).view.emb (ix2 p k)) = _
  refine congrArg (V c main_v46) ?_
  obtain ⟨e0, e1, -⟩ := block_indices t
  funext a; apply Fin.ext
  match a with
  | ⟨0, _⟩ => show win2_0.index t (0 : Fin 2) * 5000 + 1 * p.val = t.val * 5000 + p.val; omega
  | ⟨1, _⟩ => show win2_0.index t (1 : Fin 2) * 128 + 1 * k.val = k.val; omega

/-- The weight's block at any point is the whole weight. -/
theorem weight_read (c : Dev nD) (t : Fin cfg2.N) (k : Fin 128) (q : Fin 64) :
    iblk2 V c 1 t (ix2 k q) = V c main_arg4 (ix2 k q) := by
  show V c main_arg4 (((cfg2.win 1).blk t).view.emb (ix2 k q)) = _
  refine congrArg (V c main_arg4) ?_
  obtain ⟨-, -, e2, e3, -⟩ := block_indices t
  funext a; apply Fin.ext
  match a with
  | ⟨0, _⟩ => show win2_1.index t (0 : Fin 2) * 128 + 1 * k.val = k.val; omega
  | ⟨1, _⟩ => show win2_1.index t (1 : Fin 2) * 64 + 1 * q.val = q.val; omega

/-- Position `(p, q)` of the result's block at point `t` is position `(5000 t + p, q)` of the result. -/
theorem out_emb (t : Fin cfg2.N) (p : Fin 5000) (q : Fin 64) (hr : t.val * 5000 + p.val < 100000) :
    ((cfg2.win 2).blk t).view.emb (ix2 p q) = (ix2 ⟨t.val * 5000 + p.val, hr⟩ q : S100000x64.Idx) := by
  obtain ⟨-, -, -, -, e4, e5⟩ := block_indices t
  funext a; apply Fin.ext
  match a with
  | ⟨0, _⟩ => show win2_2.index t (0 : Fin 2) * 5000 + 1 * p.val = t.val * 5000 + p.val; omega
  | ⟨1, _⟩ => show win2_2.index t (1 : Fin 2) * 64 + 1 * q.val = q.val; omega

/-- What point `t` writes back is block `t` of the dense layer of the two operand arrays. -/
theorem flushed_eq (c : Dev nD) (t : Fin cfg2.N) :
    (dat2 V c).flushed 2 t = ((cfg2.win 2).blk t).view.read (Elt Ideal) (Gcn.linear (V c main_v46) (V c main_arg4)) := by
  show (cfg2.win 2).cut (grid2.coords t) ((dat2 V c).after 2 t) = _
  rw [after2_2]
  unfold out2_2
  rw [View.canon_unit_zero origin]
  simp only [View.ld_unit_zero (S := S5000x128) origin, View.ld_unit_zero (S := S128x64) origin]
  funext j
  obtain ⟨p, q, rfl⟩ : ∃ (p : Fin 5000) (q : Fin 64), j = ix2 p q := ⟨j 0, j 1, eq_ix2 j⟩
  have ht : t.val < 20 := t.isLt
  have hr : t.val * 5000 + p.val < 100000 := by have := p.isLt; omega
  show row (k2_pay1 (iblk2 V c 0 t) (iblk2 V c 1 t)) p q
    = Gcn.linear (V c main_v46) (V c main_arg4) (((cfg2.win 2).blk t).view.emb (ix2 p q))
  rw [out_emb t p q hr]
  refine (congrFun (payload_row (iblk2 V c 0 t) (iblk2 V c 1 t) p) q).trans ?_
  show dense (row (iblk2 V c 0 t) p) (mat (iblk2 V c 1 t)) q
    = dense (row (V c main_v46) ⟨t.val * 5000 + p.val, hr⟩) (mat (V c main_arg4)) q
  have hrow : row (iblk2 V c 0 t) p = row (V c main_v46) ⟨t.val * 5000 + p.val, hr⟩ :=
    funext fun k => left_read V c t p k hr
  have hmat : mat (iblk2 V c 1 t) = mat (V c main_arg4) :=
    funext fun k => funext fun q' => weight_read V c t k q'
  rw [hrow, hmat]

/-- An index of the result is in point `t`'s block iff each coordinate is in the block's range on its axis. -/
theorem mem_block (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v47).slice (win2_2.rect t)).set ↔ _
  rw [View.set_slice_whole, Rect.mem_set_unit]
  exact Iff.rfl

/-- Every index of the result lies in the block of the point that owns its row. -/
theorem covered (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  let t : Fin cfg2.N := ⟨(i 0).val / 5000, by show (i 0).val / 5000 < 20; omega⟩
  have htv : t.val = (i 0).val / 5000 := rfl
  obtain ⟨-, -, -, -, e4, e5⟩ := block_indices t
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- The result array after the region: the dense layer of the two operand arrays as the region found them. -/
theorem final (c : Dev nD) :
    (dat2 V c).arrAt 2 cfg2.N = Gcn.linear (V c main_v46) (V c main_arg4) :=
  (dat2 V c).arrAt_eq_of_cover 2 _ (fun t _ => flushed_eq V c t) covered

end Cert.KernelIdeal.Region2

end
-- ==== Proof.Region3.lean ====
/-
  The second activation's region: the array it leaves.

  As in the first activation, now on 64 columns: 20 blocks of 5000 rows of a `[100000, 64]` array, the one-row bias
  added to every row and the sums floored at zero, each block written back in place. Row `p` of block `t` is row
  `5000 t + p`, so point `t` writes back block `t` of `Gcn.biasReluRow` of the operand and the bias row, and the
  blocks cover every row.
-/
import proofs.«171686_j75977971466925_1_alg».proof.Proof.Gen.KernelIdeal.Frame
import proofs.«171686_j75977971466925_1_alg».proof.Proof.Layers
import Idealize.ShloMosaic.Lib.Pipeline.Value

set_option maxRecDepth 16384

noncomputable section

namespace Cert.KernelIdeal.Region3

open Cert.KernelIdeal Cert.KernelIdeal.Gen
open Idealize.ShloMosaic Idealize.ShloMosaic.TcCoe Idealize.ShloMosaic.ValueIdx Idealize.ShloMosaic.Rowwise
open Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The block index maps over the grid: the operand's and the result's block row is the point's number, the bias
    row's block is always the first. -/
theorem block_indices : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row `p` of the body's result: the bias row added to row `p` of the loaded block, floored at zero. The casts of
    an array to its own shape change nothing. -/
theorem payload_row (b : Vec Ideal S1x64 .f32) (x : Vec Ideal S5000x64 .f32) (p : Fin 5000) :
    row (k3_pay1 b x) p = Gcn.act (row b 0) (row x p) := by
  unfold k3_pay1
  dsimp only
  rw [shapeCast_self, shapeCast_self, shapeCast_self]
  exact Gcn.blockBiasRelu_row x b _ p

/-- Entry `(p, k)` of the operand's block at point `t` is entry `(5000 t + p, k)` of the operand. -/
theorem left_read (c : Dev nD) (t : Fin cfg3.N) (p : Fin 5000) (k : Fin 64) (hr : t.val * 5000 + p.val < 100000) :
    iblk3 V c 0 t (ix2 p k) = V c main_v64 (ix2 ⟨t.val * 5000 + p.val, hr⟩ k) := by
  show V c main_v64 (((cfg3.win 0).blk t).view.emb (ix2 p k)) = _
  refine congrArg (V c main_v64) ?_
  obtain ⟨e0, e1, -⟩ := block_indices t
  funext a; apply Fin.ext
  match a with
  | ⟨0, _⟩ => show win3_0.index t (0 : Fin 2) * 5000 + 1 * p.val = t.val * 5000 + p.val; omega
  | ⟨1, _⟩ => show win3_0.index t (1 : Fin 2) * 64 + 1 * k.val = k.val; omega

/-- The bias row's block at any point is the whole one-row array. -/
theorem bias_read (c : Dev nD) (t : Fin cfg3.N) (z : Fin 1) (q : Fin 64) :
    iblk3 V c 1 t (ix2 z q) = V c main_v65 (ix2 z q) := by
  show V c main_v65 (((cfg3.win 1).blk t).view.emb (ix2 z q)) = _
  refine congrArg (V c main_v65) ?_
  obtain ⟨-, -, e2, e3, -⟩ := block_indices t
  funext a; apply Fin.ext
  match a with
  | ⟨0, _⟩ => show win3_1.index t (0 : Fin 2) * 1 + 1 * z.val = z.val; omega
  | ⟨1, _⟩ => show win3_1.index t (1 : Fin 2) * 64 + 1 * q.val = q.val; omega

/-- Position `(p, q)` of the result's block at point `t` is position `(5000 t + p, q)` of the result. -/
theorem out_emb (t : Fin cfg3.N) (p : Fin 5000) (q : Fin 64) (hr : t.val * 5000 + p.val < 100000) :
    ((cfg3.win 2).blk t).view.emb (ix2 p q) = (ix2 ⟨t.val * 5000 + p.val, hr⟩ q : S100000x64.Idx) := by
  obtain ⟨-, -, -, -, e4, e5⟩ := block_indices t
  funext a; apply Fin.ext
  match a with
  | ⟨0, _⟩ => show win3_2.index t (0 : Fin 2) * 5000 + 1 * p.val = t.val * 5000 + p.val; omega
  | ⟨1, _⟩ => show win3_2.index t (1 : Fin 2) * 64 + 1 * q.val = q.val; omega

/-- What point `t` writes back is block `t` of the activation of the operand array under the bias row. -/
theorem flushed_eq (c : Dev nD) (t : Fin cfg3.N) :
    (dat3 V c).flushed 2 t
      = ((cfg3.win 2).blk t).view.read (Elt Ideal) (Gcn.biasReluRow (V c main_v64) (row (V c main_v65) 0)) := by
  show (cfg3.win 2).cut (grid3.coords t) ((dat3 V c).after 2 t) = _
  rw [after3_2]
  unfold out3_2
  rw [View.canon_unit_zero origin]
  simp only [View.ld_unit_zero (S := S5000x64) origin, View.ld_unit_zero (S := S1x64) origin]
  funext j
  obtain ⟨p, q, rfl⟩ : ∃ (p : Fin 5000) (q : Fin 64), j = ix2 p q := ⟨j 0, j 1, eq_ix2 j⟩
  have ht : t.val < 20 := t.isLt
  have hr : t.val * 5000 + p.val < 100000 := by have := p.isLt; omega
  show row (k3_pay1 (iblk3 V c 1 t) (iblk3 V c 0 t)) p q
    = Gcn.biasReluRow (V c main_v64) (row (V c main_v65) 0) (((cfg3.win 2).blk t).view.emb (ix2 p q))
  rw [out_emb t p q hr]
  refine (congrFun (payload_row (iblk3 V c 1 t) (iblk3 V c 0 t) p) q).trans ?_
  show Gcn.act (row (iblk3 V c 1 t) 0) (row (iblk3 V c 0 t) p) q
    = Gcn.act (row (V c main_v65) 0) (row (V c main_v64) ⟨t.val * 5000 + p.val, hr⟩) q
  have hrow : row (iblk3 V c 0 t) p = row (V c main_v64) ⟨t.val * 5000 + p.val, hr⟩ :=
    funext fun k => left_read V c t p k hr
  have hbias : row (iblk3 V c 1 t) 0 = row (V c main_v65) 0 :=
    funext fun q' => bias_read V c t 0 q'
  rw [hrow, hbias]

/-- An index of the result is in point `t`'s block iff each coordinate is in the block's range on its axis. -/
theorem mem_block (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v66).slice (win3_2.rect t)).set ↔ _
  rw [View.set_slice_whole, Rect.mem_set_unit]
  exact Iff.rfl

/-- Every index of the result lies in the block of the point that owns its row. -/
theorem covered (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  let t : Fin cfg3.N := ⟨(i 0).val / 5000, by show (i 0).val / 5000 < 20; omega⟩
  have htv : t.val = (i 0).val / 5000 := rfl
  obtain ⟨-, -, -, -, e4, e5⟩ := block_indices t
  refine ⟨t, flush3_2 t, ?_⟩
  rw [mem_block]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- The result array after the region: the activation of the operand array under the bias row, both as the region
    found them. -/
theorem final (c : Dev nD) :
    (dat3 V c).arrAt 2 cfg3.N = Gcn.biasReluRow (V c main_v64) (row (V c main_v65) 0) :=
  (dat3 V c).arrAt_eq_of_cover 2 _ (fun t _ => flushed_eq V c t) covered

end Cert.KernelIdeal.Region3

end
-- ==== Proof.Region4.lean ====
/-
  The output layer's region: the array it leaves.

  20 blocks of 5000 rows of the `[100000, 64]` hidden features, each multiplied by the whole `[64, 2]` weight, the
  one-row bias added to every row of the product, and the block written back as the same rows of the `[100000, 2]`
  result. Row `p` of the block's result is `Gcn.affine` of the weight, the bias row and row `p` of the block; row
  `p` of block `t` is row `5000 t + p` of the operand. So point `t` writes back block `t` of `Gcn.linearBiasRow`
  of the three operand arrays, and the blocks cover every row.
-/
import proofs.«171686_j75977971466925_1_alg».proof.Proof.Gen.KernelIdeal.Frame
import proofs.«171686_j75977971466925_1_alg».proof.Proof.Layers
import Idealize.ShloMosaic.Lib.Pipeline.Value

set_option maxRecDepth 16384

noncomputable section

namespace Cert.KernelIdeal.Region4

open Cert.KernelIdeal Cert.KernelIdeal.Gen
open Idealize.ShloMosaic Idealize.ShloMosaic.TcCoe Idealize.ShloMosaic.ValueIdx Idealize.ShloMosaic.Rowwise
open Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The product's dimension numbers are the plain ones. -/
theorem dims_plain : dot_S5000x64_S64x2_S5000x2_1_0_0_1_n_n = DotDims.plain 5000 64 2 := rfl

/-- The block index maps over the grid: the left operand's and the result's block row is the point's number, the
    weight's and the bias row's block is always the first. -/
theorem block_indices : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Row `p` of the body's result: row `p` of the loaded block times the loaded weight, plus the bias row. The casts of
    an array to its own shape change nothing. -/
theorem payload_row (x : Vec Ideal S5000x64 .f32) (w : Vec Ideal S64x2 .f32) (b : Vec Ideal S1x2 .f32) (p : Fin 5000) :
    row (k4_pay1 x w b) p = Gcn.affine (mat w) (row b 0) (row x p) := by
  unfold k4_pay1
  dsimp only
  rw [shapeCast_self, shapeCast_self, shapeCast_self]
  exact Gcn.blockLinearBias_row _ dims_plain _ x w b _ p

/-- Entry `(p, k)` of the left operand's block at point `t` is entry `(5000 t + p, k)` of the operand. -/
theorem left_read (c : Dev nD) (t : Fin cfg4.N) (p : Fin 5000) (k : Fin 64) (hr : t.val * 5000 + p.val < 100000) :
    iblk4 V c 0 t (ix2 p k) = V c main_v66 (ix2 ⟨t.val * 5000 + p.val, hr⟩ k) := by
  show V c main_v66 (((cfg4.win 0).blk t).view.emb (ix2 p k)) = _
  refine congrArg (V c main_v66) ?_
  obtain ⟨e0, e1, -⟩ := block_indices t
  funext a; apply Fin.ext
  match a with
  | ⟨0, _⟩ => show win4_0.index t (0 : Fin 2) * 5000 + 1 * p.val = t.val * 5000 + p.val; omega
  | ⟨1, _⟩ => show win4_0.index t (1 : Fin 2) * 64 + 1 * k.val = k.val; omega

/-- The weight's block at any point is the whole weight. -/
theorem weight_read (c : Dev nD) (t : Fin cfg4.N) (k : Fin 64) (q : Fin 2) :
    iblk4 V c 1 t (ix2 k q) = V c main_arg6 (ix2 k q) := by
  show V c main_arg6 (((cfg4.win 1).blk t).view.emb (ix2 k q)) = _
  refine congrArg (V c main_arg6) ?_
  obtain ⟨-, -, e2, e3, -⟩ := block_indices t
  funext a; apply Fin.ext
  match a with
  | ⟨0, _⟩ => show win4_1.index t (0 : Fin 2) * 64 + 1 * k.val = k.val; omega
  | ⟨1, _⟩ => show win4_1.index t (1 : Fin 2) * 2 + 1 * q.val = q.val; omega

/-- The bias row's block at any point is the whole one-row array. -/
theorem bias_read (c : Dev nD) (t : Fin cfg4.N) (z : Fin 1) (q : Fin 2) :
    iblk4 V c 2 t (ix2 z q) = V c main_v67 (ix2 z q) := by
  show V c main_v67 (((cfg4.win 2).blk t).view.emb (ix2 z q)) = _
  refine congrArg (V c main_v67) ?_
  obtain ⟨-, -, -, -, e4, e5, -⟩ := block_indices t
  funext a; apply Fin.ext
  match a with
  | ⟨0, _⟩ => show win4_2.index t (0 : Fin 2) * 1 + 1 * z.val = z.val; omega
  | ⟨1, _⟩ => show win4_2.index t (1 : Fin 2) * 2 + 1 * q.val = q.val; omega

/-- Position `(p, q)` of the result's block at point `t` is position `(5000 t + p, q)` of the result. -/
theorem out_emb (t : Fin cfg4.N) (p : Fin 5000) (q : Fin 2) (hr : t.val * 5000 + p.val < 100000) :
    ((cfg4.win 3).blk t).view.emb (ix2 p q) = (ix2 ⟨t.val * 5000 + p.val, hr⟩ q : S100000x2.Idx) := by
  obtain ⟨-, -, -, -, -, -, e6, e7⟩ := block_indices t
  funext a; apply Fin.ext
  match a with
  | ⟨0, _⟩ => show win4_3.index t (0 : Fin 2) * 5000 + 1 * p.val = t.val * 5000 + p.val; omega
  | ⟨1, _⟩ => show win4_3.index t (1 : Fin 2) * 2 + 1 * q.val = q.val; omega

/-- What point `t` writes back is block `t` of the output layer of the three operand arrays. -/
theorem flushed_eq (c : Dev nD) (t : Fin cfg4.N) :
    (dat4 V c).flushed 3 t
      = ((cfg4.win 3).blk t).view.read (Elt Ideal) (Gcn.linearBiasRow (V c main_v66) (V c main_arg6) (row (V c main_v67) 0)) := by
  show (cfg4.win 3).cut (grid4.coords t) ((dat4 V c).after 3 t) = _
  rw [after4_3]
  unfold out4_3
  rw [View.canon_unit_zero origin]
  simp only [View.ld_unit_zero (S := S5000x64) origin, View.ld_unit_zero (S := S64x2) origin, View.ld_unit_zero (S := S1x2) origin]
  funext j
  obtain ⟨p, q, rfl⟩ : ∃ (p : Fin 5000) (q : Fin 2), j = ix2 p q := ⟨j 0, j 1, eq_ix2 j⟩
  have ht : t.val < 20 := t.isLt
  have hr : t.val * 5000 + p.val < 100000 := by have := p.isLt; omega
  show row (k4_pay1 (iblk4 V c 0 t) (iblk4 V c 1 t) (iblk4 V c 2 t)) p q
    = Gcn.linearBiasRow (V c main_v66) (V c main_arg6) (row (V c main_v67) 0) (((cfg4.win 3).blk t).view.emb (ix2 p q))
  rw [out_emb t p q hr]
  refine (congrFun (payload_row (iblk4 V c 0 t) (iblk4 V c 1 t) (iblk4 V c 2 t) p) q).trans ?_
  show Gcn.affine (mat (iblk4 V c 1 t)) (row (iblk4 V c 2 t) 0) (row (iblk4 V c 0 t) p) q
    = Gcn.affine (mat (V c main_arg6)) (row (V c main_v67) 0) (row (V c main_v66) ⟨t.val * 5000 + p.val, hr⟩) q
  have hrow : row (iblk4 V c 0 t) p = row (V c main_v66) ⟨t.val * 5000 + p.val, hr⟩ :=
    funext fun k => left_read V c t p k hr
  have hmat : mat (iblk4 V c 1 t) = mat (V c main_arg6) :=
    funext fun k => funext fun q' => weight_read V c t k q'
  have hbias : row (iblk4 V c 2 t) 0 = row (V c main_v67) 0 :=
    funext fun q' => bias_read V c t 0 q'
  rw [hrow, hmat, hbias]

/-- An index of the result is in point `t`'s block iff each coordinate is in the block's range on its axis. -/
theorem mem_block (t : Fin cfg4.N) (i : S100000x2.Idx) :
    i ∈ ((cfg4.win 3).blk t).view.set ↔ ∀ a : Fin 2, win4_3.index t a * S5000x2.size a ≤ (i a).val ∧ (i a).val < win4_3.index t a * S5000x2.size a + S5000x2.size a := by
  show i ∈ ((View.whole main_v68).slice (win4_3.rect t)).set ↔ _
  rw [View.set_slice_whole, Rect.mem_set_unit]
  exact Iff.rfl

/-- Every index of the result lies in the block of the point that owns its row. -/
theorem covered (i : S100000x2.Idx) :
    ∃ t : Fin cfg4.N, (cfg4.win 3).flush t = true ∧ i ∈ ((cfg4.win 3).blk t).view.set := by
  have hi0 : (i 0).val < 100000 := (i 0).isLt
  have hi1 : (i 1).val < 2 := (i 1).isLt
  let t : Fin cfg4.N := ⟨(i 0).val / 5000, by show (i 0).val / 5000 < 20; omega⟩
  have htv : t.val = (i 0).val / 5000 := rfl
  obtain ⟨-, -, -, -, -, -, e6, e7⟩ := block_indices t
  refine ⟨t, flush4_3 t, ?_⟩
  rw [mem_block]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 2 ≤ (i 1).val ∧ (i 1).val < win4_3.index t (1 : Fin 2) * 2 + 2; omega

/-- The result array after the region: the output layer of the three operand arrays as the region found them. -/
theorem final (c : Dev nD) :
    (dat4 V c).arrAt 3 cfg4.N = Gcn.linearBiasRow (V c main_v66) (V c main_arg6) (row (V c main_v67) 0) :=
  (dat4 V c).arrAt_eq_of_cover 3 _ (fun t _ => flushed_eq V c t) covered

end Cert.KernelIdeal.Region4

end
-- ==== Proof.Stages.lean ====
/-
  The kernel program's buffers, stage by stage, as functions of the launch memory.

  Both programs compute a two-layer graph convolution network: a dense layer, a normalised aggregation over the
  edges (gather the source rows, scale by `1 / sqrt (deg src · deg dst)`, scatter-add into the destination rows, add the
  self term `h / deg`), a bias and a floor at zero, twice, and an affine output layer. The reference's generated
  reading names every intermediate as a function of the eight arguments (`val_main_vN`). This file shows that each
  buffer of the kernel program, at the boundary where the next segment reads it, holds the reference's stage of the
  same meaning, evaluated at the kernel's own launch memory:

  * a host stretch is read back operation by operation, and its term is the reference's term over the same leaves:
    the same gathers, scatter-adds and broadcasts, with the same dimension records;
  * a region's output array is the layer of its operand arrays (the `final` lemma of that region), and the layer is
    the host's spelling of the same layer (Proof/Layers.lean);
  * a buffer that a stretch or a region does not write is carried across it unchanged.

  The degree vector and the edge normaliser are computed once by the kernel program and twice by the reference; the
  second computation is the same term, so the kernel's one buffer is both stages.
-/
import proofs.«171686_j75977971466925_1_alg».proof.Proof.Gen.KernelIdeal.Frame
import proofs.«171686_j75977971466925_1_alg».proof.Proof.Gen.ReferenceIdeal.Read
import proofs.«171686_j75977971466925_1_alg».proof.Proof.Layers
import proofs.«171686_j75977971466925_1_alg».proof.Proof.Region0
import proofs.«171686_j75977971466925_1_alg».proof.Proof.Region1
import proofs.«171686_j75977971466925_1_alg».proof.Proof.Region2
import proofs.«171686_j75977971466925_1_alg».proof.Proof.Region3
import proofs.«171686_j75977971466925_1_alg».proof.Proof.Region4
import Idealize.ShloMosaic.Lib.StableHlo.Run
import Idealize.ShloMosaic.PureOps.Ideal

set_option maxRecDepth 16384

noncomputable section

namespace Cert.KernelIdeal.Stages

open Cert.KernelIdeal Cert.KernelIdeal.Gen
open Cert.ReferenceIdeal.Read
open Idealize.ShloMosaic Idealize.ShloMosaic.TcCoe Idealize.SL.Sem Idealize.ShloMosaic.StableHlo
open Idealize.ShloMosaic.Rowwise

variable (m : (ℓ : Loc nD τ sig) → Buf (Elt Ideal) ℓ) (ρ : Dev nD → PrngReg) (c : Dev nD)

/-- A host stretch leaves a buffer none of its operations writes as it found it. -/
local macro "unwritten" : tactic => `(tactic| (
  refine StableHlo.after_of_forall_not_mem _ _ (List.forall_iff_forall_mem.mp ?_)
  simp only [hostOps0, hostOps1, hostOps3, hostOps4, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The arguments, as launched -/

abbrev in0 := m ((c : Thread nD τ).loc main_arg0)
abbrev in1 := m ((c : Thread nD τ).loc main_arg1)
abbrev in2 := m ((c : Thread nD τ).loc main_arg2)
abbrev in3 := m ((c : Thread nD τ).loc main_arg3)
abbrev in4 := m ((c : Thread nD τ).loc main_arg4)
abbrev in5 := m ((c : Thread nD τ).loc main_arg5)
abbrev in6 := m ((c : Thread nD τ).loc main_arg6)
abbrev in7 := m ((c : Thread nD τ).loc main_arg7)

/-! ## Buffers carried across segments that do not write them -/

/-- From the first region's entry back to the launch: the first stretch writes no argument. -/
theorem at1 (b : Ref sig .tc)
    (h : StableHlo.after hostOps0 (W0 m ρ c) (Proc.devRef .tc b) = W0 m ρ c (Proc.devRef .tc b)) :
    W1 m ρ c (Proc.devRef .tc b) = m ((c : Thread nD τ).loc b) := h

/-- From the second stretch's entry back to the first region's entry. -/
theorem at2 (b : Ref sig .tc) (h0 : ∀ w, Pipeline.arrRef spec0 w ≠ b) :
    W2 m ρ c (Proc.devRef .tc b) = W1 m ρ c (Proc.devRef .tc b) := W2_of_ne m ρ c b h0

/-- From the third region's entry back to the first region's entry. -/
theorem at4 (b : Ref sig .tc) (h0 : ∀ w, Pipeline.arrRef spec0 w ≠ b)
    (h1 : StableHlo.after hostOps1 (W2 m ρ c) (Proc.devRef .tc b) = W2 m ρ c (Proc.devRef .tc b))
    (h2 : ∀ w, Pipeline.arrRef spec1 w ≠ b) :
    W4 m ρ c (Proc.devRef .tc b) = W1 m ρ c (Proc.devRef .tc b) :=
  (W4_of_ne m ρ c b h2).trans (h1.trans (W2_of_ne m ρ c b h0))

/-- From the third stretch's entry back to the first region's entry. -/
theorem at5 (b : Ref sig .tc) (h0 : ∀ w, Pipeline.arrRef spec0 w ≠ b)
    (h1 : StableHlo.after hostOps1 (W2 m ρ c) (Proc.devRef .tc b) = W2 m ρ c (Proc.devRef .tc b))
    (h2 : ∀ w, Pipeline.arrRef spec1 w ≠ b) (h3 : ∀ w, Pipeline.arrRef spec2 w ≠ b) :
    W5 m ρ c (Proc.devRef .tc b) = W1 m ρ c (Proc.devRef .tc b) :=
  (W5_of_ne m ρ c b h3).trans (at4 m ρ c b h0 h1 h2)

/-- From the last stretch's entry back to the first region's entry. -/
theorem at7 (b : Ref sig .tc) (h0 : ∀ w, Pipeline.arrRef spec0 w ≠ b)
    (h1 : StableHlo.after hostOps1 (W2 m ρ c) (Proc.devRef .tc b) = W2 m ρ c (Proc.devRef .tc b))
    (h2 : ∀ w, Pipeline.arrRef spec1 w ≠ b) (h3 : ∀ w, Pipeline.arrRef spec2 w ≠ b)
    (h4 : StableHlo.after hostOps3 (W5 m ρ c) (Proc.devRef .tc b) = W5 m ρ c (Proc.devRef .tc b))
    (h5 : ∀ w, Pipeline.arrRef spec3 w ≠ b) :
    W7 m ρ c (Proc.devRef .tc b) = W1 m ρ c (Proc.devRef .tc b) :=
  (W7_of_ne m ρ c b h5).trans (h4.trans (at5 m ρ c b h0 h1 h2 h3))

theorem in0_at1 : W1 m ρ c (Proc.devRef .tc main_arg0) = in0 m c := at1 m ρ c main_arg0 (by unwritten)
theorem in2_at1 : W1 m ρ c (Proc.devRef .tc main_arg2) = in2 m c := at1 m ρ c main_arg2 (by unwritten)

theorem in3_at2 : W2 m ρ c (Proc.devRef .tc main_arg3) = in3 m c :=
  (at2 m ρ c main_arg3 (by decide)).trans (at1 m ρ c main_arg3 (by unwritten))

theorem in4_at4 : W4 m ρ c (Proc.devRef .tc main_arg4) = in4 m c :=
  (at4 m ρ c main_arg4 (by decide) (by unwritten) (by decide)).trans (at1 m ρ c main_arg4 (by unwritten))

theorem in5_at5 : W5 m ρ c (Proc.devRef .tc main_arg5) = in5 m c :=
  (at5 m ρ c main_arg5 (by decide) (by unwritten) (by decide) (by decide)).trans (at1 m ρ c main_arg5 (by unwritten))

theorem in7_at7 : W7 m ρ c (Proc.devRef .tc main_arg7) = in7 m c :=
  (at7 m ρ c main_arg7 (by decide) (by unwritten) (by decide) (by decide) (by unwritten) (by decide)).trans
    (at1 m ρ c main_arg7 (by unwritten))

theorem in6_at8 : W8 m ρ c (Proc.devRef .tc main_arg6) = in6 m c :=
  (show StableHlo.after hostOps4 (W7 m ρ c) (Proc.devRef .tc main_arg6) = W7 m ρ c (Proc.devRef .tc main_arg6) by unwritten).trans
    ((at7 m ρ c main_arg6 (by decide) (by unwritten) (by decide) (by decide) (by unwritten) (by decide)).trans
      (at1 m ρ c main_arg6 (by unwritten)))

/-! ## The first stretch: the edge list's two rows, the edge normaliser and the self coefficient -/

set_option maxHeartbeats 4000000 in
/-- The source node of every edge. -/
theorem src_at1 : W1 m ρ c (Proc.devRef .tc main_v1) = val_main_v1 (F := Ideal) (in1 m c) := by
  show StableHlo.after hostOps0 (W0 m ρ c) (Proc.devRef .tc main_v1) = _
  after_results_simp
  unfold val_main_v1 val_main_v0
  rfl

set_option maxHeartbeats 4000000 in
/-- The destination node of every edge. -/
theorem dst_at1 : W1 m ρ c (Proc.devRef .tc main_v3) = val_main_v3 (F := Ideal) (in1 m c) := by
  show StableHlo.after hostOps0 (W0 m ρ c) (Proc.devRef .tc main_v3) = _
  after_results_simp
  unfold val_main_v3 val_main_v2
  rfl

set_option maxHeartbeats 8000000 in
/-- The edge normaliser `1 / sqrt (deg src) · 1 / sqrt (deg dst)`, the degrees counted from the destination row plus
    one for the self loop, each index first wrapped if negative. -/
theorem norm_at1 : W1 m ρ c (Proc.devRef .tc main_v25) = val_main_v26 (F := Ideal) (in1 m c) := by
  show StableHlo.after hostOps0 (W0 m ρ c) (Proc.devRef .tc main_v25) = _
  after_results_simp
  unfold val_main_v26 val_main_v18 val_main_v25 val_main_v17 val_main_v24 val_main_v16 val_main_v23 val_main_v13 val_main_v15
    val_main_v20 val_main_v22 val_main_v12 val_main_v14 val_main_v19 val_main_v21 val_main_c val_main_c_2 val_main_c_3 val_main_c_4
    val_main_v11 val_main_v10 val_main_v8 val_main_v9 val_main_cst_1 val_main_v6 val_main_cst_0 val_main_v7 val_main_v5 val_main_cst
    val_main_v1 val_main_v0 val_main_v3 val_main_v2
  rfl

set_option maxHeartbeats 8000000 in
/-- The self coefficient `1 / deg`. -/
theorem self_at1 : W1 m ρ c (Proc.devRef .tc main_v26) = val_main_v40 (F := Ideal) (in1 m c) := by
  show StableHlo.after hostOps0 (W0 m ρ c) (Proc.devRef .tc main_v26) = _
  after_results_simp
  unfold val_main_v40 val_main_v11 val_main_v10 val_main_v8 val_main_v9 val_main_cst_1 val_main_v6 val_main_cst_0 val_main_v7
    val_main_v5 val_main_cst val_main_v3 val_main_v2
  rfl

/-- The reference computes the edge normaliser a second time for its second layer: the same term. -/
theorem norm_again (x : (⟨Cert.ReferenceIdeal.S2x1600000, .i32⟩ : BufTy).Contents (Elt Ideal)) :
    val_main_v71 (F := Ideal) x = val_main_v26 (F := Ideal) x := by
  unfold val_main_v71 val_main_v63 val_main_v70 val_main_v62 val_main_v69 val_main_v61 val_main_v68 val_main_v58 val_main_v60
    val_main_v65 val_main_v67 val_main_v57 val_main_v59 val_main_v64 val_main_v66 val_main_c_11 val_main_c_12 val_main_c_13 val_main_c_14
    val_main_v56 val_main_v55 val_main_v53 val_main_v54 val_main_cst_10 val_main_v51 val_main_cst_9 val_main_v52 val_main_v50 val_main_cst_8
    val_main_v26 val_main_v18 val_main_v25 val_main_v17 val_main_v24 val_main_v16 val_main_v23 val_main_v13 val_main_v15
    val_main_v20 val_main_v22 val_main_v12 val_main_v14 val_main_v19 val_main_v21 val_main_c val_main_c_2 val_main_c_3 val_main_c_4
    val_main_v11 val_main_v10 val_main_v8 val_main_v9 val_main_cst_1 val_main_v6 val_main_cst_0 val_main_v7 val_main_v5 val_main_cst
  rfl

/-- And the self coefficient a second time: the same term. -/
theorem self_again (x : (⟨Cert.ReferenceIdeal.S2x1600000, .i32⟩ : BufTy).Contents (Elt Ideal)) :
    val_main_v85 (F := Ideal) x = val_main_v40 (F := Ideal) x := by
  unfold val_main_v85 val_main_v56 val_main_v55 val_main_v53 val_main_v54 val_main_cst_10 val_main_v51 val_main_cst_9 val_main_v52
    val_main_v50 val_main_cst_8
    val_main_v40 val_main_v11 val_main_v10 val_main_v8 val_main_v9 val_main_cst_1 val_main_v6 val_main_cst_0 val_main_v7 val_main_v5
    val_main_cst
  rfl

theorem src_at2 : W2 m ρ c (Proc.devRef .tc main_v1) = val_main_v1 (F := Ideal) (in1 m c) :=
  (at2 m ρ c main_v1 (by decide)).trans (src_at1 m ρ c)
theorem dst_at2 : W2 m ρ c (Proc.devRef .tc main_v3) = val_main_v3 (F := Ideal) (in1 m c) :=
  (at2 m ρ c main_v3 (by decide)).trans (dst_at1 m ρ c)
theorem norm_at2 : W2 m ρ c (Proc.devRef .tc main_v25) = val_main_v26 (F := Ideal) (in1 m c) :=
  (at2 m ρ c main_v25 (by decide)).trans (norm_at1 m ρ c)
theorem self_at2 : W2 m ρ c (Proc.devRef .tc main_v26) = val_main_v40 (F := Ideal) (in1 m c) :=
  (at2 m ρ c main_v26 (by decide)).trans (self_at1 m ρ c)

theorem src_at5 : W5 m ρ c (Proc.devRef .tc main_v1) = val_main_v1 (F := Ideal) (in1 m c) :=
  (at5 m ρ c main_v1 (by decide) (by unwritten) (by decide) (by decide)).trans (src_at1 m ρ c)
theorem dst_at5 : W5 m ρ c (Proc.devRef .tc main_v3) = val_main_v3 (F := Ideal) (in1 m c) :=
  (at5 m ρ c main_v3 (by decide) (by unwritten) (by decide) (by decide)).trans (dst_at1 m ρ c)
theorem norm_at5 : W5 m ρ c (Proc.devRef .tc main_v25) = val_main_v71 (F := Ideal) (in1 m c) :=
  ((at5 m ρ c main_v25 (by decide) (by unwritten) (by decide) (by decide)).trans (norm_at1 m ρ c)).trans (norm_again _).symm
theorem self_at5 : W5 m ρ c (Proc.devRef .tc main_v26) = val_main_v85 (F := Ideal) (in1 m c) :=
  ((at5 m ρ c main_v26 (by decide) (by unwritten) (by decide) (by decide)).trans (self_at1 m ρ c)).trans (self_again _).symm

/-! ## The first layer -/

/-- The first region leaves the dense layer of the features and the first weight. -/
theorem lin1 : W2 m ρ c (Proc.devRef .tc main_v27) = val_main_v4 (F := Ideal) (in0 m c) (in2 m c) := by
  refine (W2_arr m ρ c 2).trans ((Region0.final (V1 m ρ) c).trans ?_)
  show Gcn.linear (W1 m ρ c (Proc.devRef .tc main_arg0)) (W1 m ρ c (Proc.devRef .tc main_arg2)) = _
  rw [in0_at1, in2_at1]
  have hd : Cert.ReferenceIdeal.dot_S100000x165_S165x128_S100000x128_1_0_0_1_n_n = DotDims.plain 100000 165 128 := rfl
  unfold val_main_v4
  exact (Gcn.hostLinear_eq _ hd _ _).symm

set_option maxHeartbeats 8000000 in
/-- The second stretch aggregates over the edges: the scatter-add of the scaled source rows plus the self term. -/
theorem agg1 : W3 m ρ c (Proc.devRef .tc main_v44) = val_main_v44 (F := Ideal) (in0 m c) (in1 m c) (in2 m c) := by
  show StableHlo.after hostOps1 (W2 m ρ c) (Proc.devRef .tc main_v44) = _
  after_results_simp
  rw [dst_at2, lin1, src_at2, norm_at2, self_at2]
  unfold val_main_v44 val_main_v39 val_main_v43 val_main_v42 val_main_v41 val_main_v37 val_main_cst_7 val_main_v38 val_main_v36
    val_main_v33 val_main_v35 val_main_v34 val_main_v32 val_main_v31 val_main_v28 val_main_v30 val_main_v27 val_main_v29
    val_main_c_5 val_main_c_6
  rfl

set_option maxHeartbeats 4000000 in
/-- The first bias, recast as a one-row array. -/
theorem bias1 : W3 m ρ c (Proc.devRef .tc main_v45) = shapeCast S1x128 (in3 m c) shapeCasts_S128_S1x128 := by
  show StableHlo.after hostOps1 (W2 m ρ c) (Proc.devRef .tc main_v45) = _
  after_results_simp
  rw [in3_at2]
  rfl

/-- The second region leaves the first layer's activation. -/
theorem act1 : W4 m ρ c (Proc.devRef .tc main_v46)
    = val_main_v48 (F := Ideal) (in0 m c) (in1 m c) (in2 m c) (in3 m c) := by
  refine (W4_arr m ρ c 2).trans ((Region1.final (V3 m ρ) c).trans ?_)
  show Gcn.biasReluRow (W3 m ρ c (Proc.devRef .tc main_v44)) (row (W3 m ρ c (Proc.devRef .tc main_v45)) 0) = _
  rw [agg1, bias1, Gcn.row_of_recast, ← Gcn.biasRelu_eq_row]
  unfold val_main_v48 val_main_v47 val_main_v46 val_main_v45 val_main_call0_v0 val_main_call0_cst
  exact (Gcn.hostBiasRelu_eq _ _ _ _ _).symm

/-! ## The second layer -/

/-- The third region leaves the dense layer of the first activation and the second weight. -/
theorem lin2 : W5 m ρ c (Proc.devRef .tc main_v47)
    = val_main_v49 (F := Ideal) (in0 m c) (in1 m c) (in2 m c) (in3 m c) (in4 m c) := by
  refine (W5_arr m ρ c 2).trans ((Region2.final (V4 m ρ) c).trans ?_)
  show Gcn.linear (W4 m ρ c (Proc.devRef .tc main_v46)) (W4 m ρ c (Proc.devRef .tc main_arg4)) = _
  rw [act1, in4_at4]
  have hd : Cert.ReferenceIdeal.dot_S100000x128_S128x64_S100000x64_1_0_0_1_n_n = DotDims.plain 100000 128 64 := rfl
  unfold val_main_v49
  exact (Gcn.hostLinear_eq _ hd _ _).symm

set_option maxHeartbeats 8000000 in
/-- The third stretch aggregates the second layer's features over the edges. -/
theorem agg2 : W6 m ρ c (Proc.devRef .tc main_v64)
    = val_main_v89 (F := Ideal) (in0 m c) (in1 m c) (in2 m c) (in3 m c) (in4 m c) := by
  show StableHlo.after hostOps3 (W5 m ρ c) (Proc.devRef .tc main_v64) = _
  after_results_simp
  rw [dst_at5, lin2, src_at5, norm_at5, self_at5]
  unfold val_main_v89 val_main_v84 val_main_v88 val_main_v87 val_main_v86 val_main_v82 val_main_cst_17 val_main_v83 val_main_v81
    val_main_v78 val_main_v80 val_main_v79 val_main_v77 val_main_v76 val_main_v73 val_main_v75 val_main_v72 val_main_v74
    val_main_c_15 val_main_c_16
  rfl

set_option maxHeartbeats 4000000 in
/-- The second bias, recast as a one-row array. -/
theorem bias2 : W6 m ρ c (Proc.devRef .tc main_v65) = shapeCast S1x64 (in5 m c) shapeCasts_S64_S1x64 := by
  show StableHlo.after hostOps3 (W5 m ρ c) (Proc.devRef .tc main_v65) = _
  after_results_simp
  rw [in5_at5]
  rfl

/-- The fourth region leaves the second layer's activation. -/
theorem act2 : W7 m ρ c (Proc.devRef .tc main_v66)
    = val_main_v93 (F := Ideal) (in0 m c) (in1 m c) (in2 m c) (in3 m c) (in4 m c) (in5 m c) := by
  refine (W7_arr m ρ c 2).trans ((Region3.final (V6 m ρ) c).trans ?_)
  show Gcn.biasReluRow (W6 m ρ c (Proc.devRef .tc main_v64)) (row (W6 m ρ c (Proc.devRef .tc main_v65)) 0) = _
  rw [agg2, bias2, Gcn.row_of_recast, ← Gcn.biasRelu_eq_row]
  unfold val_main_v93 val_main_v92 val_main_v91 val_main_v90 val_main_call1_v0 val_main_call1_cst
  exact (Gcn.hostBiasRelu_eq _ _ _ _ _).symm

/-! ## The output layer -/

set_option maxHeartbeats 4000000 in
/-- The output bias, recast as a one-row array. -/
theorem bias3 : W8 m ρ c (Proc.devRef .tc main_v67) = shapeCast S1x2 (in7 m c) shapeCasts_S2_S1x2 := by
  show StableHlo.after hostOps4 (W7 m ρ c) (Proc.devRef .tc main_v67) = _
  after_results_simp
  rw [in7_at7]
  rfl

/-- The last stretch leaves the second activation as the fourth region left it. -/
theorem act2_at8 : W8 m ρ c (Proc.devRef .tc main_v66)
    = val_main_v93 (F := Ideal) (in0 m c) (in1 m c) (in2 m c) (in3 m c) (in4 m c) (in5 m c) :=
  (show StableHlo.after hostOps4 (W7 m ρ c) (Proc.devRef .tc main_v66) = W7 m ρ c (Proc.devRef .tc main_v66) by unwritten).trans
    (act2 m ρ c)

/-- THE RESULT: the last region leaves the reference's result term, evaluated at the kernel's launch memory. -/
theorem result : W9 m ρ c (Proc.devRef .tc main_v68)
    = val_main_v97 (F := Ideal) (in0 m c) (in1 m c) (in2 m c) (in3 m c) (in4 m c) (in5 m c) (in6 m c) (in7 m c) := by
  refine (W9_arr m ρ c 3).trans ((Region4.final (V8 m ρ) c).trans ?_)
  show Gcn.linearBiasRow (W8 m ρ c (Proc.devRef .tc main_v66)) (W8 m ρ c (Proc.devRef .tc main_arg6))
    (row (W8 m ρ c (Proc.devRef .tc main_v67)) 0) = _
  rw [act2_at8, in6_at8, bias3, Gcn.row_of_recast, ← Gcn.linearBias_eq_row]
  have hd : Cert.ReferenceIdeal.dot_S100000x64_S64x2_S100000x2_1_0_0_1_n_n = DotDims.plain 100000 64 2 := rfl
  unfold val_main_v97 val_main_v94 val_main_v96 val_main_v95
  exact (Gcn.hostLinearBias_eq _ hd _ _ _ _ _).symm

end Cert.KernelIdeal.Stages

end
-- ==== Proof.lean ====
/-
  A two-layer graph convolution network on 100000 nodes and 1600000 edges: the kernel program against its reference.

  Both programs compute, from node features `x`, an edge list and three weight and bias pairs,

      h₁ = max (Â (x W₁) + b₁) 0,   h₂ = max (Â (h₁ W₂) + b₂) 0,   out = h₂ Wₒ + bₒ,

  where `Â h` gathers each edge's source row of `h`, scales it by `1 / sqrt (deg src · deg dst)`, adds it into the
  edge's destination row, and adds the self term `h / deg`; `deg` counts the edges into a node plus one. The
  reference does every step on the host. The kernel program does the aggregation on the host too, with the same
  operations in the same order, and the three products and the two bias-and-floor steps in five kernel regions, each
  walking the 100000 rows in 20 blocks of 5000.

  On the extended reals a change of float format is the identity, so a region's product of narrowed operands into a
  zero accumulator is, row by row, the same sum over the shared axis as the host's product; the regions' one-row bias
  repeated down a block is the host's bias vector laid as a row and repeated down the rows; and the blocks cover every
  row. Hence each region leaves the reference's array of the same meaning (Proof/Region0 … Region4 over Proof/Layers),
  each host stretch leaves the reference's term over equal leaves (Proof/Stages), and the result buffer ends at the
  reference's result term evaluated at the kernel's launch memory. No law of the extended reals is needed beyond
  reading each operation at an index, so the finiteness of the inputs is never used.

  The frames of the two kernel programs are the generated ones; the reference's frame is its generated run with the
  result dropped; no rewrite was applied in idealizing the kernel, so there is nothing to preserve.
-/
import proofs.«171686_j75977971466925_1_alg».proof.Defs
import proofs.«171686_j75977971466925_1_alg».proof.Proof.Gen.Kernel
import proofs.«171686_j75977971466925_1_alg».proof.Proof.Gen.Kernel.Skeleton
import proofs.«171686_j75977971466925_1_alg».proof.Proof.Gen.Kernel.Launch
import proofs.«171686_j75977971466925_1_alg».proof.Proof.Gen.Kernel.Points
import proofs.«171686_j75977971466925_1_alg».proof.Proof.Gen.Kernel.Frame
import proofs.«171686_j75977971466925_1_alg».proof.Proof.Gen.KernelIdeal
import proofs.«171686_j75977971466925_1_alg».proof.Proof.Gen.KernelIdeal.Skeleton
import proofs.«171686_j75977971466925_1_alg».proof.Proof.Gen.KernelIdeal.Launch
import proofs.«171686_j75977971466925_1_alg».proof.Proof.Gen.KernelIdeal.Points
import proofs.«171686_j75977971466925_1_alg».proof.Proof.Gen.KernelIdeal.Frame
import proofs.«171686_j75977971466925_1_alg».proof.Proof.Gen.ReferenceIdeal
import proofs.«171686_j75977971466925_1_alg».proof.Proof.Gen.Pre_finite_inputs
import proofs.«171686_j75977971466925_1_alg».proof.Proof.Gen.ReferenceIdeal.Run
import proofs.«171686_j75977971466925_1_alg».proof.Proof.Gen.ReferenceIdeal.Read
import proofs.«171686_j75977971466925_1_alg».proof.Proof.KernelRun
import proofs.«171686_j75977971466925_1_alg».proof.Proof.Stages
import Idealize.ShloMosaic.Adequacy
import Idealize.ShloMosaic.Init

noncomputable section

namespace Cert.Proof

open Idealize.ShloMosaic Idealize.ShloMosaic.TcCoe Idealize.SL.Sem

/-- The kernel program as printed runs and leaves its arguments as launched. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments as launched: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the same result array: the kernel's result
    buffer ends at the reference's result term of the kernel's own arguments, which are the reference's. -/
theorem algebraic : Cert.algebraic_KernelIdeal_ReferenceIdeal := by
  intro m ρ m' ρ' _ hagree
  refine ⟨fun c => Cert.KernelIdeal.Gen.W9 m ρ c (Proc.devRef .tc Cert.KernelIdeal.main_v68),
    Cert.KernelIdeal.Named.run_named m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v97_eq, h0, h1, h2, h3, h4, h5, h6, h7]
  exact (Cert.KernelIdeal.Stages.result m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
